-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 32 := constantI S_ 32 128#32
  let main_v36 : IVec S100000 32 := broadcastInDim S100000 ![] bcast_S_S100000 main_c_13
  let main_v37 : IVec S100000 1 := cmpi .slt main_arg0 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg0 : IVec S100000 32) (main_arg7 : FVec F S64 .f32) (main_arg8 : FVec F S1x64 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg8
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S100000 32) (main_arg1 : IVec S2x1600000 32) (main_arg2 : IVec S100000 32) (main_arg3 : FVec F S128x64 .f32) (main_arg4 : FVec F S64x128 .f32) (main_arg5 : FVec F S128 .f32) (main_arg6 : FVec F S128x64 .f32) (main_arg7 : FVec F S64 .f32) (main_arg8 : FVec F S1x64 .f32) (main_arg9 : FVec F S1 .f32) : IVec S_ 1 :=
  let main_v0 : FVec F S128x64 .f32 := Host.absf main_arg3
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg7 main_arg8 main_arg9 main_v13 main_v16
-- ==== Kernel.lean ====
abbrev S100000 : Shape := ⟨1, ![100000]⟩
abbrev S2x1600000 : Shape := ⟨2, ![2, 1600000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x1 : Shape := ⟨2, ![5000, 1]⟩
abbrev S5000x64 : Shape := ⟨2, ![5000, 64]⟩
abbrev S5000x128 : Shape := ⟨2, ![5000, 128]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S2048 : Shape := ⟨1, ![2048]⟩
abbrev S2048x64 : Shape := ⟨2, ![2048, 64]⟩
abbrev S64x1 : Shape := ⟨2, ![64, 1]⟩
abbrev S1x1 : Shape := ⟨2, ![1, 1]⟩
abbrev S2048x1 : Shape := ⟨2, ![2048, 1]⟩

abbrev nBuf : Space → Nat
  | .hbm => 101
  | .vmem => 30
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x1, .i32⟩
  | .hbm, ⟨47, _⟩ => ⟨S100000x64, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S2048, .f32⟩
  | .hbm, ⟨90, _⟩ => ⟨S100000x1, .i32⟩
  | .hbm, ⟨91, _⟩ => ⟨S2048, .f32⟩
  | .hbm, ⟨92, _⟩ => ⟨S_, .f32⟩
  | .hbm, ⟨93, _⟩ => ⟨S2048x64, .f32⟩
  | .hbm, ⟨94, _⟩ => ⟨S100000x1, .i32⟩
  | .hbm, ⟨95, _⟩ => ⟨S2048x64, .f32⟩
  | .hbm, ⟨96, _⟩ => ⟨S64x1, .f32⟩
  | .hbm, ⟨97, _⟩ => ⟨S1x1, .f32⟩
  | .hbm, ⟨98, _⟩ => ⟨S2048x1, .f32⟩
  | .hbm, ⟨99, _⟩ => ⟨S2048x1, .f32⟩
  | .hbm, ⟨100, _⟩ => ⟨S2048, .f32⟩
  | .local _ .vmem, ⟨0, _⟩ => ⟨S5000x1, .i32⟩
  | .local _ .vmem, ⟨1, _⟩ => ⟨S5000x1, .i32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S2048x64, .f32⟩
  | .local _ .vmem, ⟨26, _⟩ => ⟨S2048x1, .f32⟩
  | .local _ .vmem, ⟨27, _⟩ => ⟨S64x1, .f32⟩
  | .local _ .vmem, ⟨28, _⟩ => ⟨S1x1, .f32⟩
  | .local _ .vmem, ⟨29, _⟩ => ⟨S2048x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg4_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S2048x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2048x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S2048 : S_.BroadcastsInDim S2048 (![] : Fin 0 → Fin S2048.rank)
  bcast_S100000_S100000x1_0 : S100000.BroadcastsInDim S100000x1 (![0] : Fin 1 → Fin S100000x1.rank)
  bcast_S_S2048x64 : S_.BroadcastsInDim S2048x64 (![] : Fin 0 → Fin S2048x64.rank)
  transposes_S1x64_S64x1_1_0 : S1x64.Transposes [1, 0] S64x1
  shapeCasts_S1_S1x1 : S1.ShapeCasts S1x1
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S2048x1_S2048 : S2048x1.ShapeCasts S2048
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S2048_S100000x1_S100000_n_0_0_1_wf : ScatterDims.WF S2048 S100000x1 S100000 [] [0] [0] 1
  scatter_S2048x64_S100000x1_S100000x64_1_0_0_1_wf : ScatterDims.WF S2048x64 S100000x1 S100000x64 [1] [0] [0] 1
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S2048x64.size a
  hwx5_0 : ∀ i : grid5.Coords, EltTy.bits .f32 = 32 ∨ (Rect.block (s := S2048x64) S2048x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S2048x1.size a
  hwx5_1 : ∀ i : grid5.Coords, EltTy.bits .f32 = 32 ∨ (Rect.block (s := S2048x1) S2048x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2048x1.size a ≤ S2048x1.size a
  hwx5_4 : ∀ i : grid5.Coords, EltTy.bits .f32 = 32 ∨ (Rect.block (s := S2048x1) S2048x1.size (cc5_transform_4 i) (hinb5_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v29) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S2048x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v72) S2048x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S2048x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000 : Shape := ⟨1, ![100000]⟩
abbrev S2x1600000 : Shape := ⟨2, ![2, 1600000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S2048 : Shape := ⟨1, ![2048]⟩
abbrev S2048x64 : Shape := ⟨2, ![2048, 64]⟩
abbrev S2048x1 : Shape := ⟨2, ![2048, 1]⟩
abbrev S64x1 : Shape := ⟨2, ![64, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S128x64, .f32⟩
  | 4 => ⟨S64x128, .f32⟩
  | 5 => ⟨S128, .f32⟩
  | 6 => ⟨S128x64, .f32⟩
  | 7 => ⟨S64, .f32⟩
  | 8 => ⟨S1x64, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x64, .f32⟩
  | 55 => ⟨S100000x128, .f32⟩
  | 56 => ⟨S1700000x1, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x64, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S100000, .f32⟩
  | 103 => ⟨S_, .f32⟩
  | 104 => ⟨S2048, .f32⟩
  | 105 => ⟨S100000x1, .i32⟩
  | 106 => ⟨S2048, .f32⟩
  | 107 => ⟨S_, .f32⟩
  | 108 => ⟨S2048x64, .f32⟩
  | 109 => ⟨S100000x1, .i32⟩
  | 110 => ⟨S2048x64, .f32⟩
  | 111 => ⟨S_, .f32⟩
  | 112 => ⟨S2048, .f32⟩
  | 113 => ⟨S2048, .f32⟩
  | 114 => ⟨S2048x1, .f32⟩
  | 115 => ⟨S2048x64, .f32⟩
  | 116 => ⟨S2048x64, .f32⟩
  | 117 => ⟨S64x1, .f32⟩
  | 118 => ⟨S2048x1, .f32⟩
  | 119 => ⟨S1x1, .f32⟩
  | 120 => ⟨S2048x1, .f32⟩
  | 121 => ⟨S2048x1, .f32⟩
  | 122 => ⟨S2048x1, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S100000, .i32⟩

abbrev hbmTy0_1 (i : Nat) : BufTy := match i % 128 with
  | 0 => ⟨S2048x1, .f32⟩
  | 1 => ⟨S2048x1, .f32⟩
  | 2 => ⟨S2048, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048 : S_.BroadcastsInDim S2048 (![] : Fin 0 → Fin S2048.rank)
  bcast_S_S2048x64 : S_.BroadcastsInDim S2048x64 (![] : Fin 0 → Fin S2048x64.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  transposes_S1x64_S64x1_1_0 : S1x64.Transposes [1, 0] S64x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  shapeCasts_S2048x1_S2048 : S2048x1.ShapeCasts S2048
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S128x64_S100000x1_S100000x64_1_0_n_n_0_1_164_wf : GatherDims.WF S128x64 S100000x1 S100000x64 [1] [0] [] [0] [] 1 ![1, 64]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S2048_S100000x1_S100000_n_0_0_1_wf : ScatterDims.WF S2048 S100000x1 S100000 [] [0] [0] 1
  scatter_S2048x64_S100000x1_S100000x64_1_0_0_1_wf : ScatterDims.WF S2048x64 S100000x1 S100000x64 [1] [0] [0] 1
  dot_S2048x64_S64x1_S2048x1_1_0_0_1_n_n_wf : DotDims.WF S2048x64 S64x1 S2048x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.RefOps.lean ====
/-
  The reference's layers, each as one operator on whole arrays.

  The reference network is: an embedding lookup of the node ids; two graph-convolution layers, each a linear map of the
  node features, a normalised aggregation over the edges (with self loops) and a bias followed by max(·, 0); a mean
  over the nodes of each graph; a linear head followed by the logistic function. The aggregation and the pooling sums
  are computed by the same host operations in both programs; the layers named here are the ones the other program
  computes inside kernels, so each kernel is compared with exactly one of these operators.
-/
import proofs.«421451_j11776800326003_1_alg».proof.Proof.Gen.ReferenceIdeal.Read

noncomputable section

namespace Cert.Gcn

open Cert.ReferenceIdeal Cert.ReferenceIdeal.Gen Cert.ReferenceIdeal.Read Idealize.ShloMosaic

/-- The embedding lookup: row p of the result is the table's row named by node id p (negative ids wrapped, then clamped,
    as the host's indexing does). -/
abbrev embedR (ids : IVec S100000 32) (emb : FVec Ideal S128x64 .f32) : FVec Ideal S100000x64 .f32 :=
  val_main_v35 (F := Ideal) ids emb

/-- The first layer's linear map: x · W₁. -/
abbrev lin1R (x : FVec Ideal S100000x64 .f32) (w : FVec Ideal S64x128 .f32) : FVec Ideal S100000x128 .f32 :=
  Host.dotGeneral dot_S100000x64_S64x128_S100000x128_1_0_0_1_n_n none x w

/-- The first layer's bias and rectification: max(a + b₁, 0), b₁ laid along the rows. -/
abbrev act1R (a : FVec Ideal S100000x128 .f32) (b : FVec Ideal S128 .f32) : FVec Ideal S100000x128 .f32 :=
  maximumf (addf a (val_main_v51 (F := Ideal) b : FVec Ideal S100000x128 .f32)) (val_main_call0_v0 (F := Ideal) : FVec Ideal S100000x128 .f32)

/-- The second layer's linear map: x · W₂. -/
abbrev lin2R (x : FVec Ideal S100000x128 .f32) (w : FVec Ideal S128x64 .f32) : FVec Ideal S100000x64 .f32 :=
  Host.dotGeneral dot_S100000x128_S128x64_S100000x64_1_0_0_1_n_n none x w

/-- The second layer's bias and rectification: max(a + b₂, 0). -/
abbrev act2R (a : FVec Ideal S100000x64 .f32) (b : FVec Ideal S64 .f32) : FVec Ideal S100000x64 .f32 :=
  maximumf (addf a (val_main_v69 (F := Ideal) b : FVec Ideal S100000x64 .f32)) (val_main_call1_v0 (F := Ideal) : FVec Ideal S100000x64 .f32)

/-- The head: the pooled sums divided by max(count, 1), the linear map to one logit per graph, the bias, and
    1 / (1 + exp(−·)), laid out as a vector over the graphs. -/
abbrev headR (ps : FVec Ideal S2048x64 .f32) (cnt : FVec Ideal S2048 .f32) (fcw : FVec Ideal S1x64 .f32)
    (fcb : FVec Ideal S1 .f32) : FVec Ideal S2048 .f32 :=
  shapeCast _ (Host.divf (val_main_v93 (F := Ideal) : FVec Ideal S2048x1 .f32) (addf (val_main_v91 (F := Ideal) : FVec Ideal S2048x1 .f32) (Host.exp (Host.negf (addf
    (Host.dotGeneral (φ₁ := .f32) (φ₂ := .f32) dot_S2048x64_S64x1_S2048x1_1_0_0_1_n_n none
      (Host.divf ps (broadcastInDim S2048x64 ![0, 1] bcast_S2048x1_S2048x64_0_1
        (broadcastInDim S2048x1 ![0] bcast_S2048_S2048x1_0 (maximumf cnt (val_main_v79 (F := Ideal) : FVec Ideal S2048 .f32)))))
      (val_main_v84 (F := Ideal) fcw : FVec Ideal S64x1 .f32))
    (val_main_v87 (F := Ideal) fcb : FVec Ideal S2048x1 .f32)))))) shapeCasts_S2048x1_S2048

end Cert.Gcn

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayEmbed.lean ====
/-
  The embedding lookup inside its kernel, and the range of the node ids.

  A kernel instance holds 5000 consecutive node ids as a column and the whole table of 128 rows. It compares each id with
  the column numbers 0 … 127, turns the comparison into 1.0 or 0.0, and multiplies that one-hot row with the table: for an
  id in 0 … 127 the sum over the table's rows has one term that is not zero, the table's row of that id. The host looks
  the row up directly (wrapping a negative id, then clamping), which for an id in 0 … 127 is the same row.
  The precondition says every id is in 0 … 127; the second part reads that out of the printed predicate.
-/
import proofs.«421451_j11776800326003_1_alg».proof.Proof.Gen.KernelIdeal.Skeleton
import proofs.«421451_j11776800326003_1_alg».proof.Proof.RefOps
import proofs.«421451_j11776800326003_1_alg».proof.Pre_finite_inputs
import proofs.«421451_j11776800326003_1_alg».proof.Proof.LibDotPlain
import proofs.«421451_j11776800326003_1_alg».proof.Proof.LibTakeRows
import proofs.«421451_j11776800326003_1_alg».proof.Proof.LibColumn
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open scoped BigOperators

namespace Cert.Gcn

open Cert.KernelIdeal Cert.KernelIdeal.Gen Idealize.ShloMosaic Idealize.ShloMosaic.ValueIdx

/-- The one-hot row at (a, c): 1 when the id of row a is the word of the column number c, else 0. -/
private theorem onehot_apply (x0 : Vec Ideal S5000x1 .i32) (a : Fin 5000) (c : Fin 128) :
    (truncf .bf16 (sitofp .f32 (extui 32 (cmpi .eq (broadcastTo S5000x128 x0 broadcasts_S5000x1_S5000x128)
        (iota .tc S5000x128 32 [1] iota_S5000x128_d1_w32)) natLt_1_32)) bitsLt_bf16_f32 : FVec Ideal S5000x128 .bf16) (ix2 a c)
      = if x0 (ix2 a (0 : Fin 1)) = BitVec.ofNat 32 c.val then (1 : EReal) else 0 := by
  rw [truncf_apply, sitofp_apply, extui_apply]
  show FloatOps.sitofp .f32 ((IntOp.cmpi .eq (broadcastTo S5000x128 x0 broadcasts_S5000x1_S5000x128 (ix2 a c))
    (iota .tc S5000x128 32 [1] iota_S5000x128_d1_w32 (ix2 a c))).setWidth 32) = _
  rw [Cert.LibColumn.broadcastTo_a1_ab_apply, iota_single_apply]
  show FloatOps.sitofp .f32 ((IntOp.cmpi .eq (x0 (ix2 a (0 : Fin 1))) (BitVec.ofNat 32 c.val)).setWidth 32) = _
  by_cases h : x0 (ix2 a (0 : Fin 1)) = BitVec.ofNat 32 c.val
  · rw [if_pos h, IntOp.cmpi_eq.2 h]
    show ((((1#1 : BitVec 1).setWidth 32).toInt : ℝ) : EReal) = 1
    rw [show ((1#1 : BitVec 1).setWidth 32).toInt = 1 from by decide]
    norm_num
  · rw [if_neg h, eq_zero_of_ne_one (mt IntOp.cmpi_eq.1 h)]
    show ((((0#1 : BitVec 1).setWidth 32).toInt : ℝ) : EReal) = 0
    rw [show ((0#1 : BitVec 1).setWidth 32).toInt = 0 from by decide]
    norm_num

/-- The host's lookup at (P, b), for an id in 0 … 127: the table's row of that id. The id is not negative, so the wrap
    leaves it alone; read signed it is its own value, and the clamp to 127 leaves it alone too. -/
private theorem embedR_apply (ids : IVec S100000 32) (emb : FVec Ideal S128x64 .f32) (P : Fin 100000) (b : Fin 64)
    (h : (ids (ix1 P)).toNat < 128) :
    embedR ids emb (ix2 P b) = emb (ix2 (⟨(ids (ix1 P)).toNat, h⟩ : Fin 128) b) := by
  show Host.gather Cert.ReferenceIdeal.gather_S128x64_S100000x1_S100000x64_1_0_n_n_0_1_164 emb
    (Cert.ReferenceIdeal.Read.val_main_v34 (F := Ideal) ids) (ix2 P b) = _
  rw [Cert.TakeRows.take_rows_apply _ rfl rfl rfl rfl rfl (by omega)]
  have hidx : Cert.ReferenceIdeal.Read.idx_main_v34 (ix2 P (0 : Fin 1)) = ix1 P := by
    funext d; match d with | ⟨0, _⟩ => rfl
  have hv : Cert.ReferenceIdeal.Read.val_main_v34 (F := Ideal) ids (ix2 P (0 : Fin 1)) = ids (ix1 P) := by
    rw [Cert.ReferenceIdeal.Read.val_main_v34_apply, hidx, Cert.ReferenceIdeal.Read.val_main_v33_apply,
      Cert.ReferenceIdeal.Read.val_main_v30_apply, Cert.ReferenceIdeal.Read.val_main_v29_apply,
      Cert.ReferenceIdeal.Read.val_main_c_5_apply]
    have hn : ¬ IntOp.cmpi .slt (ids (ix1 P)) 0#32 = 1#1 := by
      rw [IntOp.cmpi_slt, StableHlo.Predicate.toInt_eq_toNat_of_lt (by omega), show (0#32 : BitVec 32).toInt = 0 from by decide]
      omega
    rw [eq_zero_of_ne_one hn, select_zero]
  have hm : min (Cert.ReferenceIdeal.Read.val_main_v34 (F := Ideal) ids (ix2 P (0 : Fin 1))).toInt.toNat (128 - 1)
      = (ids (ix1 P)).toNat := by
    rw [hv, StableHlo.Predicate.toInt_eq_toNat_of_lt (by omega), Int.toNat_natCast]
    omega
  exact congrArg emb (congrArg (fun r => ix2 r b) (Fin.ext hm))

/-- The kernel's one-hot product on a block of 5000 ids, at (a, b), is the host's lookup at row 5000·t + a, when every
    id is in 0 … 127. -/
theorem embed_block (ids : IVec S100000 32) (hr : ∀ p : Fin 100000, (ids (ix1 p)).toNat < 128)
    (emb : FVec Ideal S128x64 .f32)
    (x0 : Vec Ideal S5000x1 .i32) (x1 : Vec Ideal S128x64 .f32) (t : ℕ) (ht : t < 20)
    (h0 : ∀ a : Fin 5000, x0 (ix2 a (0 : Fin 1)) = ids (ix1 (⟨t * 5000 + a.val, by omega⟩ : Fin 100000)))
    (h1 : ∀ (v : Fin 128) (q : Fin 64), x1 (ix2 v q) = emb (ix2 v q))
    (a : Fin 5000) (b : Fin 64) :
    k0_pay1 (F := Ideal) x0 x1 (ix2 a b) = embedR ids emb (ix2 (⟨t * 5000 + a.val, by omega⟩ : Fin 100000) b) := by
  unfold k0_pay1
  refine (Cert.LibDotPlain.matmul_zero_apply dot_S5000x128_S128x64_S5000x64_1_0_0_1_n_n_wf none _ _ a b).trans ?_
  simp only [shapeCast_self]
  have hid : (x0 (ix2 a (0 : Fin 1))).toNat < 128 := by rw [h0 a]; exact hr _
  have hR : embedR ids emb (ix2 (⟨t * 5000 + a.val, by omega⟩ : Fin 100000) b)
      = x1 (ix2 (⟨(x0 (ix2 a (0 : Fin 1))).toNat, hid⟩ : Fin 128) b) := by
    rw [embedR_apply ids emb _ b (hr _), h1]
    exact congrArg emb (congrArg (fun r => ix2 r b) (Fin.ext (congrArg BitVec.toNat (h0 a)).symm))
  rw [hR, Finset.sum_eq_single (⟨(x0 (ix2 a (0 : Fin 1))).toNat, hid⟩ : Fin 128)]
  · have hw : x0 (ix2 a (0 : Fin 1)) = BitVec.ofNat 32 (x0 (ix2 a (0 : Fin 1))).toNat := by
      apply BitVec.eq_of_toNat_eq
      rw [BitVec.toNat_ofNat]
      omega
    rw [onehot_apply, truncf_apply, if_pos hw, one_mul]
  · intro c _ hne
    have hc : ¬ x0 (ix2 a (0 : Fin 1)) = BitVec.ofNat 32 c.val := fun e => hne (Fin.ext (by
      show c.val = (x0 (ix2 a (0 : Fin 1))).toNat
      rw [e, BitVec.toNat_ofNat]; have := c.isLt; omega))
    rw [onehot_apply, if_neg hc, zero_mul]
  · intro h'; exact absurd (Finset.mem_univ _) h'

/-- The precondition's last conjunct, read at a node: its id is in 0 … 127. -/
theorem ids_range [Cert.Pre_finite_inputs.Facts]
    (a0 : IVec Cert.Pre_finite_inputs.S100000 32) (a1 : IVec Cert.Pre_finite_inputs.S2x1600000 32)
    (a2 : IVec Cert.Pre_finite_inputs.S100000 32) (a3 : FVec Ideal Cert.Pre_finite_inputs.S128x64 .f32)
    (a4 : FVec Ideal Cert.Pre_finite_inputs.S64x128 .f32) (a5 : FVec Ideal Cert.Pre_finite_inputs.S128 .f32)
    (a6 : FVec Ideal Cert.Pre_finite_inputs.S128x64 .f32) (a7 : FVec Ideal Cert.Pre_finite_inputs.S64 .f32)
    (a8 : FVec Ideal Cert.Pre_finite_inputs.S1x64 .f32) (a9 : FVec Ideal Cert.Pre_finite_inputs.S1 .f32)
    (h : Cert.Pre_finite_inputs.fn (F := Ideal) a0 a1 a2 a3 a4 a5 a6 a7 a8 a9 = fun _ => 1#1) :
    ∀ p : Fin 100000, (a0 (ix1 p)).toNat < 128 := by
  intro p
  have hs := congrFun h ix0
  dsimp only [Cert.Pre_finite_inputs.fn, Cert.Pre_finite_inputs.fn_part1, Cert.Pre_finite_inputs.fn_part2] at hs
  have h39 := (IntOp.andi_eq_one.1 hs).2
  haveI : Subsingleton Cert.Pre_finite_inputs.S_.Idx := ⟨fun x y => funext fun d => d.elim0⟩
  have hp := Host.reduce_andi_all _ _ _ _ _ h39 (ix1 p)
  obtain ⟨hge, hlt⟩ := IntOp.andi_eq_one.1 hp
  have hge' : IntOp.cmpi .sge (a0 (ix1 p)) 0#32 = 1#1 := by
    rw [← hge]
    show _ = IntOp.cmpi .sge (a0 (ix1 p)) (broadcastInDim Cert.Pre_finite_inputs.S100000 ![] _ (constantI Cert.Pre_finite_inputs.S_ 32 0#32) (ix1 p))
    rw [StableHlo.Predicate.bcast_scalar _ Cert.Pre_finite_inputs.Facts.h_S_]
    rfl
  have hlt' : IntOp.cmpi .slt (a0 (ix1 p)) 128#32 = 1#1 := by
    rw [← hlt]
    show _ = IntOp.cmpi .slt (a0 (ix1 p)) (broadcastInDim Cert.Pre_finite_inputs.S100000 ![] _ (constantI Cert.Pre_finite_inputs.S_ 32 128#32) (ix1 p))
    rw [StableHlo.Predicate.bcast_scalar _ Cert.Pre_finite_inputs.Facts.h_S_]
    rfl
  rw [IntOp.cmpi_sge, show (0#32 : BitVec 32).toInt = 0 from by decide] at hge'
  rw [IntOp.cmpi_slt, show (128#32 : BitVec 32).toInt = 128 from by decide] at hlt'
  have hpos : 2 * (a0 (ix1 p)).toNat < 2 ^ 32 := BitVec.toInt_pos_iff.1 hge'
  rw [BitVec.toInt_eq_toNat_of_lt hpos] at hlt'
  omega

end Cert.Gcn

end
-- ==== Proof.Tile0.lean ====
/-
  The embedding kernel, from blocks to the whole array.

  The kernel runs at 20 grid points; point t reads node ids 5000·t … 5000·t + 4999 (a column) and the whole table, and
  writes the same rows of the result. What point t writes is its block of the table's rows looked up by those ids (the
  block lemma, for ids in 0 … 127); the 20 blocks are disjoint and together cover all 100000 rows, so after the run the
  result array IS the lookup of the whole id vector in the table the region found.
-/
import proofs.«421451_j11776800326003_1_alg».proof.Proof.Gen.KernelIdeal.Frame
import proofs.«421451_j11776800326003_1_alg».proof.Proof.PayEmbed

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the id and result windows are at block row t, column block 0; the table's
    window stays at block (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the lookup, when the id column the region found is the id vector and every id
    is in 0 … 127. -/
theorem flushed0 (c : Dev nD) (ids : IVec S100000 32) (hr : ∀ p : Fin 100000, (ids (ix1 p)).toNat < 128)
    (hv : ∀ p : Fin 100000, V c main_v29 (ix2 p (0 : Fin 1)) = ids (ix1 p)) (t : Fin cfg0.N) :
    (dat0 V c).flushed 2 t = ((cfg0.win 2).blk t).view.read (Elt Ideal) (embedR ids (V c main_arg3)) := by
  show (cfg0.win 2).cut (grid0.coords t) ((dat0 V c).after 2 t) = _
  rw [after0_2]
  unfold out0_2
  rw [View.canon_unit_zero zero_offsets0]
  simp only [View.ld_unit_zero (S := S5000x1) zero_offsets0, View.ld_unit_zero (S := S128x64) zero_offsets0]
  obtain ⟨e0, e1, e2, e3, e4, e5⟩ := index_maps0 t
  have ht : t.val < 20 := t.isLt
  funext j
  obtain ⟨a, b, rfl⟩ : ∃ (a : Fin 5000) (b : Fin 64), j = ix2 a b := ⟨j 0, j 1, eq_ix2 j⟩
  have hemb : ((cfg0.win 2).blk t).view.emb (ix2 a b) = ix2 (⟨t.val * 5000 + a.val, by omega⟩ : Fin 100000) b := by
    funext ax; apply Fin.ext
    match ax with
    | ⟨0, _⟩ => show win0_2.index t (0 : Fin 2) * 5000 + 1 * a.val = t.val * 5000 + a.val; omega
    | ⟨1, _⟩ => show win0_2.index t (1 : Fin 2) * 64 + 1 * b.val = b.val; omega
  show k0_pay1 (iblk0 V c 0 t) (iblk0 V c 1 t) (ix2 a b)
    = embedR ids (V c main_arg3) (((cfg0.win 2).blk t).view.emb (ix2 a b))
  rw [hemb]
  refine embed_block ids hr (V c main_arg3) (iblk0 V c 0 t) (iblk0 V c 1 t) t.val ht ?_ ?_ a b
  · intro a'
    refine Eq.trans ?_ (hv (⟨t.val * 5000 + a'.val, by omega⟩ : Fin 100000))
    show V c main_v29 (((cfg0.win 0).blk t).view.emb (ix2 a' (0 : Fin 1))) = V c main_v29 _
    congr 1
    funext ax; apply Fin.ext
    match ax with
    | ⟨0, _⟩ => show win0_0.index t (0 : Fin 2) * 5000 + 1 * a'.val = t.val * 5000 + a'.val; omega
    | ⟨1, _⟩ => show win0_0.index t (1 : Fin 2) * 1 + 1 * (0 : Fin 1).val = (0 : Fin 1).val; omega
  · intro v q
    show V c main_arg3 (((cfg0.win 1).blk t).view.emb (ix2 v q)) = V c main_arg3 _
    congr 1
    funext ax; apply Fin.ext
    match ax with
    | ⟨0, _⟩ => show win0_1.index t (0 : Fin 2) * 128 + 1 * v.val = v.val; omega
    | ⟨1, _⟩ => show win0_1.index t (1 : Fin 2) * 64 + 1 * q.val = q.val; omega

/-- An index of the result array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Every row lies in the block of the point numbered by the row's quotient by 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 5000 < 20 := by omega
  refine ⟨⟨(i 0).val / 5000, hq⟩, flush0_2 _, ?_⟩
  rw [mem_block0]
  obtain ⟨e0, e1, e2, e3, e4, e5⟩ := index_maps0 ⟨(i 0).val / 5000, hq⟩
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 64 ≤ (i 1).val
      ∧ (i 1).val < win0_2.index ⟨(i 0).val / 5000, hq⟩ (1 : Fin 2) * 64 + 64
    rw [e5]; omega

/-- After the run the result array is the lookup of the id vector in the table the region found. -/
theorem arr0 (c : Dev nD) (ids : IVec S100000 32) (hr : ∀ p : Fin 100000, (ids (ix1 p)).toNat < 128)
    (hv : ∀ p : Fin 100000, V c main_v29 (ix2 p (0 : Fin 1)) = ids (ix1 p)) :
    (dat0 V c).arrAt 2 cfg0.N = embedR ids (V c main_arg3) :=
  (dat0 V c).arrAt_eq_of_cover 2 _ (fun t _ => flushed0 V c ids hr hv t) (cover0)

end Cert.KernelIdeal.Tiles

end
-- ==== Proof.PayMatmul.lean ====
/-
  The two linear layers inside their kernels, one block of rows at a time.

  A kernel instance holds 5000 consecutive rows of the node features (block t holds rows 5000·t … 5000·t + 4999) and the
  whole weight matrix, and writes the product of the two into the zero accumulator. Read at an entry, that is the sum
  over the shared coordinate of feature times weight: the same sum the host's matrix product of the whole arrays is at
  the entry's row of the whole array. Changing the number format of the operands first changes nothing on the
  extended reals.
-/
import proofs.«421451_j11776800326003_1_alg».proof.Proof.Gen.KernelIdeal.Skeleton
import proofs.«421451_j11776800326003_1_alg».proof.Proof.RefOps
import proofs.«421451_j11776800326003_1_alg».proof.Proof.LibDotPlain
import Idealize.ShloMosaic.Lib.ValueIdx
import Idealize.ShloMosaic.PureOps.Ideal.Laws

noncomputable section

open scoped BigOperators

namespace Cert.Gcn

open Cert.KernelIdeal Cert.KernelIdeal.Gen Idealize.ShloMosaic Idealize.ShloMosaic.ValueIdx

/-- The kernel's product of one block with the weights at (a, b): the sum over the shared coordinate; the cast to the same
    shape and the change of number format of both operands are the identity on the extended reals. -/
private theorem k1_pay1_apply (x0 : Vec Ideal S5000x64 .f32) (x1 : Vec Ideal S64x128 .f32) (a : Fin 5000) (b : Fin 128) :
    k1_pay1 (F := Ideal) x0 x1 (ix2 a b) = ∑ k : Fin 64, x0 (ix2 a k) * x1 (ix2 k b) := by
  unfold k1_pay1
  refine (Cert.LibDotPlain.matmul_zero_apply _ none _ _ a b).trans ?_
  refine Finset.sum_congr rfl fun c _ => ?_
  rw [truncf_apply, truncf_apply, shapeCast_self]

/-- The host's product of the whole arrays at (r, b): the sum over the shared coordinate, whatever the left operand is. -/
private theorem lin1R_apply (X : FVec Ideal S100000x64 .f32) (W : FVec Ideal S64x128 .f32) (r : Fin 100000) (b : Fin 128) :
    lin1R X W (ix2 r b) = ∑ k : Fin 64, X (ix2 r k) * W (ix2 k b) := by
  unfold lin1R
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 r b) ((contrEquiv1 Cert.ReferenceIdeal.dot_S100000x64_S64x128_S100000x128_1_0_0_1_n_n 64 rfl rfl).symm k) = ix2 r k := funext fun a => Fin.ext (by
    match a with
    | ⟨0, _⟩ => exact Cert.ReferenceIdeal.Read.lhs_main_v36_0 _ _
    | ⟨1, _⟩ => exact (Cert.ReferenceIdeal.Read.lhs_main_v36_1 _ _).trans hk)
  have er : Cert.ReferenceIdeal.dot_S100000x64_S64x128_S100000x128_1_0_0_1_n_n.rhsIdx (ix2 r b) ((contrEquiv1 Cert.ReferenceIdeal.dot_S100000x64_S64x128_S100000x128_1_0_0_1_n_n 64 rfl rfl).symm k) = ix2 k b := funext fun a => Fin.ext (by
    match a with
    | ⟨0, _⟩ => exact (Cert.ReferenceIdeal.Read.rhs_main_v36_0 _ _).trans hk
    | ⟨1, _⟩ => exact Cert.ReferenceIdeal.Read.rhs_main_v36_1 _ _)
  rw [el, er]

/-- The kernel's product of one block with the weights at (a, b): the sum over the shared coordinate; the cast to the same
    shape and the change of number format of both operands are the identity on the extended reals. -/
private theorem k3_pay1_apply (x0 : Vec Ideal S5000x128 .f32) (x1 : Vec Ideal S128x64 .f32) (a : Fin 5000) (b : Fin 64) :
    k3_pay1 (F := Ideal) x0 x1 (ix2 a b) = ∑ k : Fin 128, x0 (ix2 a k) * x1 (ix2 k b) := by
  unfold k3_pay1
  refine (Cert.LibDotPlain.matmul_zero_apply _ none _ _ a b).trans ?_
  refine Finset.sum_congr rfl fun c _ => ?_
  rw [truncf_apply, truncf_apply, shapeCast_self]

/-- The host's product of the whole arrays at (r, b): the sum over the shared coordinate, whatever the left operand is. -/
private theorem lin2R_apply (X : FVec Ideal S100000x128 .f32) (W : FVec Ideal S128x64 .f32) (r : Fin 100000) (b : Fin 64) :
    lin2R X W (ix2 r b) = ∑ k : Fin 128, X (ix2 r k) * W (ix2 k b) := by
  unfold lin2R
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r b) ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v54_0 _ _
    | ⟨1, _⟩ => exact (Cert.ReferenceIdeal.Read.lhs_main_v54_1 _ _).trans hk)
  have er : Cert.ReferenceIdeal.dot_S100000x128_S128x64_S100000x64_1_0_0_1_n_n.rhsIdx (ix2 r b) ((contrEquiv1 Cert.ReferenceIdeal.dot_S100000x128_S128x64_S100000x64_1_0_0_1_n_n 128 rfl rfl).symm k) = ix2 k b := funext fun a => Fin.ext (by
    match a with
    | ⟨0, _⟩ => exact (Cert.ReferenceIdeal.Read.rhs_main_v54_0 _ _).trans hk
    | ⟨1, _⟩ => exact Cert.ReferenceIdeal.Read.rhs_main_v54_1 _ _)
  rw [el, er]

/-- Layer 1: the kernel's product of a block of 5000 rows with W₁, at (a, b), is the whole product at row 5000·t + a. -/
theorem lin1_block (X : FVec Ideal S100000x64 .f32) (W : FVec Ideal S64x128 .f32)
    (x0 : Vec Ideal S5000x64 .f32) (x1 : Vec Ideal S64x128 .f32) (t : ℕ) (ht : t < 20)
    (h0 : ∀ (a : Fin 5000) (k : Fin 64), x0 (ix2 a k) = X (ix2 (⟨t * 5000 + a.val, by omega⟩ : Fin 100000) k))
    (h1 : ∀ (k : Fin 64) (b : Fin 128), x1 (ix2 k b) = W (ix2 k b))
    (a : Fin 5000) (b : Fin 128) :
    k1_pay1 (F := Ideal) x0 x1 (ix2 a b) = lin1R X W (ix2 (⟨t * 5000 + a.val, by omega⟩ : Fin 100000) b) := by
  rw [k1_pay1_apply, lin1R_apply]
  exact Finset.sum_congr rfl fun k _ => by rw [h0 a k, h1 k b]

/-- Layer 2: the kernel's product of a block of 5000 rows with W₂, at (a, b), is the whole product at row 5000·t + a. -/
theorem lin2_block (X : FVec Ideal S100000x128 .f32) (W : FVec Ideal S128x64 .f32)
    (x0 : Vec Ideal S5000x128 .f32) (x1 : Vec Ideal S128x64 .f32) (t : ℕ) (ht : t < 20)
    (h0 : ∀ (a : Fin 5000) (k : Fin 128), x0 (ix2 a k) = X (ix2 (⟨t * 5000 + a.val, by omega⟩ : Fin 100000) k))
    (h1 : ∀ (k : Fin 128) (b : Fin 64), x1 (ix2 k b) = W (ix2 k b))
    (a : Fin 5000) (b : Fin 64) :
    k3_pay1 (F := Ideal) x0 x1 (ix2 a b) = lin2R X W (ix2 (⟨t * 5000 + a.val, by omega⟩ : Fin 100000) b) := by
  rw [k3_pay1_apply, lin2R_apply]
  exact Finset.sum_congr rfl fun k _ => by rw [h0 a k, h1 k b]

end Cert.Gcn

end
-- ==== Proof.Tile1.lean ====
/-
  The first linear layer's kernel, from blocks to the whole array.

  The kernel runs at 20 grid points; point t reads rows 5000·t … 5000·t + 4999 of the node features and the whole weight
  matrix, and writes the same rows of the result. What point t writes is its block of x · W₁ (the block lemma); the 20
  blocks are disjoint and together cover all 100000 rows, so after the run the result array IS x · W₁ of the arrays the
  region found.
-/
import proofs.«421451_j11776800326003_1_alg».proof.Proof.Gen.KernelIdeal.Frame
import proofs.«421451_j11776800326003_1_alg».proof.Proof.PayMatmul

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: the feature and result windows are at block row t, column block 0; the weight
    window stays at block (0, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of x · W₁. -/
theorem flushed1 (c : Dev nD) (t : Fin cfg1.N) :
    (dat1 V c).flushed 2 t = ((cfg1.win 2).blk t).view.read (Elt Ideal) (lin1R (V c main_v30) (V c main_arg4)) := by
  show (cfg1.win 2).cut (grid1.coords t) ((dat1 V c).after 2 t) = _
  rw [after1_2]
  unfold out1_2
  rw [View.canon_unit_zero zero_offsets1]
  simp only [View.ld_unit_zero (S := S5000x64) zero_offsets1, View.ld_unit_zero (S := S64x128) zero_offsets1]
  obtain ⟨e0, e1, e2, e3, e4, e5⟩ := index_maps1 t
  have ht : t.val < 20 := t.isLt
  funext j
  obtain ⟨a, b, rfl⟩ : ∃ (a : Fin 5000) (b : Fin 128), j = ix2 a b := ⟨j 0, j 1, eq_ix2 j⟩
  have hemb : ((cfg1.win 2).blk t).view.emb (ix2 a b) = ix2 (⟨t.val * 5000 + a.val, by omega⟩ : Fin 100000) b := by
    funext ax; apply Fin.ext
    match ax with
    | ⟨0, _⟩ => show win1_2.index t (0 : Fin 2) * 5000 + 1 * a.val = t.val * 5000 + a.val; omega
    | ⟨1, _⟩ => show win1_2.index t (1 : Fin 2) * 128 + 1 * b.val = b.val; omega
  show k1_pay1 (iblk1 V c 0 t) (iblk1 V c 1 t) (ix2 a b)
    = lin1R (V c main_v30) (V c main_arg4) (((cfg1.win 2).blk t).view.emb (ix2 a b))
  rw [hemb]
  refine lin1_block (V c main_v30) (V c main_arg4) (iblk1 V c 0 t) (iblk1 V c 1 t) t.val ht ?_ ?_ a b
  · intro a' k
    show V c main_v30 (((cfg1.win 0).blk t).view.emb (ix2 a' k)) = V c main_v30 _
    congr 1
    funext ax; apply Fin.ext
    match ax with
    | ⟨0, _⟩ => show win1_0.index t (0 : Fin 2) * 5000 + 1 * a'.val = t.val * 5000 + a'.val; omega
    | ⟨1, _⟩ => show win1_0.index t (1 : Fin 2) * 64 + 1 * k.val = k.val; omega
  · intro k b'
    show V c main_arg4 (((cfg1.win 1).blk t).view.emb (ix2 k b')) = V c main_arg4 _
    congr 1
    funext ax; apply Fin.ext
    match ax with
    | ⟨0, _⟩ => show win1_1.index t (0 : Fin 2) * 64 + 1 * k.val = k.val; omega
    | ⟨1, _⟩ => show win1_1.index t (1 : Fin 2) * 128 + 1 * b'.val = b'.val; omega

/-- An index of the result array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v31).slice (win1_2.rect t)).set ↔ _
  rw [View.set_slice_whole, Rect.mem_set_unit]
  exact Iff.rfl

/-- Every row lies in the block of the point numbered by the row's quotient by 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 5000 < 20 := by omega
  refine ⟨⟨(i 0).val / 5000, hq⟩, flush1_2 _, ?_⟩
  rw [mem_block1]
  obtain ⟨e0, e1, e2, e3, e4, e5⟩ := index_maps1 ⟨(i 0).val / 5000, hq⟩
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    rw [e5]; omega

/-- After the run the result array is x · W₁ of the arrays the region found. -/
theorem arr1 (c : Dev nD) : (dat1 V c).arrAt 2 cfg1.N = lin1R (V c main_v30) (V c main_arg4) :=
  (dat1 V c).arrAt_eq_of_cover 2 _ (fun t _ => flushed1 V c t) (cover1)

end Cert.KernelIdeal.Tiles

end
-- ==== Proof.PayBias.lean ====
/-
  Bias and rectification inside their kernels, one block of rows at a time.

  A kernel instance holds 5000 consecutive rows of the aggregated features and the bias as a single row; it adds the
  bias to every row and takes the maximum with zero. Entry by entry that is what the host's add of the bias laid along
  the rows, followed by its maximum with the zero array, gives at the entry's row of the whole array.
-/
import proofs.«421451_j11776800326003_1_alg».proof.Proof.Gen.KernelIdeal.Skeleton
import proofs.«421451_j11776800326003_1_alg».proof.Proof.RefOps
import Idealize.ShloMosaic.Lib.ValueIdx
import Idealize.ShloMosaic.Lib.ValueLayout
import Idealize.ShloMosaic.Lib.Pipeline.Value

noncomputable section

open scoped BigOperators

namespace Cert.Gcn

open Cert.KernelIdeal Cert.KernelIdeal.Gen Idealize.ShloMosaic Idealize.ShloMosaic.ValueIdx
open Cert.ReferenceIdeal.Read

/-- Layer 1: max(rows + b₁, 0) on a block of 5000 rows, at (a, b), is the whole array's at row 5000·t + a. -/
theorem act1_block (A : FVec Ideal S100000x128 .f32) (bv : FVec Ideal S128 .f32)
    (x0 : Vec Ideal S5000x128 .f32) (x1 : Vec Ideal S1x128 .f32) (t : ℕ) (ht : t < 20)
    (h0 : ∀ (a : Fin 5000) (k : Fin 128), x0 (ix2 a k) = A (ix2 (⟨t * 5000 + a.val, by omega⟩ : Fin 100000) k))
    (h1 : ∀ k : Fin 128, x1 (ix2 (0 : Fin 1) k) = bv (ix1 k))
    (a : Fin 5000) (b : Fin 128) :
    k2_pay1 (F := Ideal) x0 x1 (ix2 a b) = act1R A bv (ix2 (⟨t * 5000 + a.val, by omega⟩ : Fin 100000) b) := by
  have hb : broadcastTo S5000x128 x1 broadcasts_S1x128_S5000x128 (ix2 a b) = x1 (ix2 (0 : Fin 1) b) :=
    broadcastTo_1b_ab_apply x1 broadcasts_S1x128_S5000x128 a b
  have hr : (val_main_v51 (F := Ideal) bv : FVec Ideal S100000x128 .f32) (ix2 (⟨t * 5000 + a.val, by omega⟩ : Fin 100000) b) = bv (ix1 b) := by
    rw [val_main_v51_apply, val_main_v50_apply]
    refine congrArg bv ?_
    funext d
    match d with
    | ⟨0, _⟩ => rfl
  have hz : (val_main_call0_v0 (F := Ideal) : FVec Ideal S100000x128 .f32) (ix2 (⟨t * 5000 + a.val, by omega⟩ : Fin 100000) b) = Ideal.ofBits .f32 0x00000000#32 := by
    rw [val_main_call0_v0_apply, val_main_call0_cst_apply]
    rfl
  unfold k2_pay1 act1R
  simp only [shapeCast_self]
  rw [maximumf_apply, maximumf_apply, addf_apply, addf_apply, hb, hr, hz, h0, h1, broadcast_apply]
  rfl

/-- Layer 2: max(rows + b₂, 0) on a block of 5000 rows, at (a, b), is the whole array's at row 5000·t + a. -/
theorem act2_block (A : FVec Ideal S100000x64 .f32) (bv : FVec Ideal S64 .f32)
    (x0 : Vec Ideal S5000x64 .f32) (x1 : Vec Ideal S1x64 .f32) (t : ℕ) (ht : t < 20)
    (h0 : ∀ (a : Fin 5000) (k : Fin 64), x0 (ix2 a k) = A (ix2 (⟨t * 5000 + a.val, by omega⟩ : Fin 100000) k))
    (h1 : ∀ k : Fin 64, x1 (ix2 (0 : Fin 1) k) = bv (ix1 k))
    (a : Fin 5000) (b : Fin 64) :
    k4_pay1 (F := Ideal) x0 x1 (ix2 a b) = act2R A bv (ix2 (⟨t * 5000 + a.val, by omega⟩ : Fin 100000) b) := by
  have hb : broadcastTo S5000x64 x1 broadcasts_S1x64_S5000x64 (ix2 a b) = x1 (ix2 (0 : Fin 1) b) :=
    broadcastTo_1b_ab_apply x1 broadcasts_S1x64_S5000x64 a b
  have hr : (val_main_v69 (F := Ideal) bv : FVec Ideal S100000x64 .f32) (ix2 (⟨t * 5000 + a.val, by omega⟩ : Fin 100000) b) = bv (ix1 b) := by
    rw [val_main_v69_apply, val_main_v68_apply]
    refine congrArg bv ?_
    funext d
    match d with
    | ⟨0, _⟩ => rfl
  have hz : (val_main_call1_v0 (F := Ideal) : FVec Ideal S100000x64 .f32) (ix2 (⟨t * 5000 + a.val, by omega⟩ : Fin 100000) b) = Ideal.ofBits .f32 0x00000000#32 := by
    rw [val_main_call1_v0_apply, val_main_call1_cst_apply]
    rfl
  unfold k4_pay1 act2R
  simp only [shapeCast_self]
  rw [maximumf_apply, maximumf_apply, addf_apply, addf_apply, hb, hr, hz, h0, h1, broadcast_apply]
  rfl

end Cert.Gcn

end
-- ==== Proof.Tile2.lean ====
/-
  The first layer's bias-and-rectification kernel, from blocks to the whole array.

  The kernel runs at 20 grid points. Point t reads rows 5000·t … 5000·t + 4999 of the aggregated features together with
  the bias, which is a single row of 128 entries and is the same at every point, and it writes the same rows of the result.
  What point t writes is max(row + b₁, 0) on each of its rows, which is that block of rows of max(· + b₁, 0) applied to the
  whole array (the block lemma). Row i lies in the block of exactly one point, t = ⌊i / 5000⌋, and t ranges over 0 … 19
  as i ranges over 0 … 99999; so the 20 blocks are disjoint, together they cover every row, and after the run the result
  array IS max(· + b₁, 0) of the array the region found.
-/
import proofs.«421451_j11776800326003_1_alg».proof.Proof.Gen.KernelIdeal.Frame
import proofs.«421451_j11776800326003_1_alg».proof.Proof.PayBias

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset vector (0, 0) is the constant-zero function on the two axes. -/
theorem zero_offsets2 : (![0, 0] : Fin 2 → Nat) = fun _ => 0 := funext fun a => by fin_cases a <;> rfl

/-- The printed index maps over the grid: the feature and result windows are at block row t, column block 0; the bias
    window stays at block (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t (rows 5000·t … 5000·t + 4999) of max(· + b₁, 0) of the feature array, b₁ being
    the vector whose entries the bias row holds. -/
theorem flushed2 (c : Dev nD) (bv : FVec Ideal S128 .f32) (hb : ∀ k : Fin 128, V c main_v45 (ix2 (0 : Fin 1) k) = bv (ix1 k))
    (t : Fin cfg2.N) :
    (dat2 V c).flushed 2 t = ((cfg2.win 2).blk t).view.read (Elt Ideal) (act1R (V c main_v44) bv) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S1x128) zero_offsets2]
  obtain ⟨e0, e1, e2, e3, e4, e5⟩ := index_maps2 t
  have ht : t.val < 20 := t.isLt
  funext j
  obtain ⟨a, b, rfl⟩ : ∃ (a : Fin 5000) (b : Fin 128), j = ix2 a b := ⟨j 0, j 1, eq_ix2 j⟩
  have hemb : ((cfg2.win 2).blk t).view.emb (ix2 a b) = ix2 (⟨t.val * 5000 + a.val, by omega⟩ : Fin 100000) b := by
    funext ax; apply Fin.ext
    match ax with
    | ⟨0, _⟩ => show win2_2.index t (0 : Fin 2) * 5000 + 1 * a.val = t.val * 5000 + a.val; omega
    | ⟨1, _⟩ => show win2_2.index t (1 : Fin 2) * 128 + 1 * b.val = b.val; omega
  show k2_pay1 (iblk2 V c 0 t) (iblk2 V c 1 t) (ix2 a b)
    = act1R (V c main_v44) bv (((cfg2.win 2).blk t).view.emb (ix2 a b))
  rw [hemb]
  refine act1_block (V c main_v44) bv (iblk2 V c 0 t) (iblk2 V c 1 t) t.val ht ?_ ?_ a b
  · intro a' k
    show V c main_v44 (((cfg2.win 0).blk t).view.emb (ix2 a' k)) = V c main_v44 _
    congr 1
    funext ax; apply Fin.ext
    match ax with
    | ⟨0, _⟩ => show win2_0.index t (0 : Fin 2) * 5000 + 1 * a'.val = t.val * 5000 + a'.val; omega
    | ⟨1, _⟩ => show win2_0.index t (1 : Fin 2) * 128 + 1 * k.val = k.val; omega
  · intro k
    show V c main_v45 (((cfg2.win 1).blk t).view.emb (ix2 (0 : Fin 1) k)) = bv (ix1 k)
    rw [← hb k]
    congr 1
    funext ax; apply Fin.ext
    match ax with
    | ⟨0, _⟩ => show win2_1.index t (0 : Fin 2) * 1 + 1 * (0 : Fin 1).val = (0 : Fin 1).val; omega
    | ⟨1, _⟩ => show win2_1.index t (1 : Fin 2) * 128 + 1 * k.val = k.val; omega

/-- An index of the result array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Every row lies in the block of the point numbered by the row's quotient by 5000, and that quotient is below 20. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hq : (i 0).val / 5000 < 20 := by omega
  refine ⟨⟨(i 0).val / 5000, hq⟩, flush2_2 _, ?_⟩
  rw [mem_block2]
  obtain ⟨e0, e1, e2, e3, e4, e5⟩ := index_maps2 ⟨(i 0).val / 5000, hq⟩
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hq⟩ (1 : Fin 2) * 128 ≤ (i 1).val
      ∧ (i 1).val < win2_2.index ⟨(i 0).val / 5000, hq⟩ (1 : Fin 2) * 128 + 128
    rw [e5]; omega

/-- After the run the result array is max(· + b₁, 0) of the feature array the region found, b₁ being the vector whose
    entries the bias row holds. -/
theorem arr2 (c : Dev nD) (bv : FVec Ideal S128 .f32) (hb : ∀ k : Fin 128, V c main_v45 (ix2 (0 : Fin 1) k) = bv (ix1 k)) :
    (dat2 V c).arrAt 2 cfg2.N = act1R (V c main_v44) bv :=
  (dat2 V c).arrAt_eq_of_cover 2 _ (fun t _ => flushed2 V c bv hb t) (cover2)

end Cert.KernelIdeal.Tiles

end
-- ==== Proof.FoldA.lean ====
/-
  The kernel program's buffers, boundary by boundary: from the launch to the first layer's output.

  The program is a line of segments: host operations, then a kernel region, and so on. The contents of the buffers at each
  boundary are a function of the contents at the boundary before: a host stretch rewrites the buffers its operations
  write (each to its operation's function of its operands), a region rewrites its output array (to the layer's operator
  of its input arrays, by the blocks-to-array step) and nothing else. Walking forward from the launch memory, every
  buffer that matters is one of the reference's own stages of the argument arrays:
  the edge lists with self loops, the edge normalisation, the embedded features, the first linear layer, its
  aggregation over the edges, and its bias and rectification.
-/
import proofs.«421451_j11776800326003_1_alg».proof.Proof.Gen.KernelIdeal.Frame
import proofs.«421451_j11776800326003_1_alg».proof.Proof.RefOps
import proofs.«421451_j11776800326003_1_alg».proof.Proof.LibColumn
import proofs.«421451_j11776800326003_1_alg».proof.Proof.Tile0
import proofs.«421451_j11776800326003_1_alg».proof.Proof.Tile1
import proofs.«421451_j11776800326003_1_alg».proof.Proof.Tile2
import Idealize.ShloMosaic.Lib.ValueLayout

set_option maxRecDepth 16384

noncomputable section

namespace Cert.KernelIdeal.Fold

open Cert.KernelIdeal Cert.KernelIdeal.Gen Cert.Gcn Cert.KernelIdeal.Tiles Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays, by their types -/

abbrev a0 : IVec S100000 32 := m ((c : Thread nD τ).loc main_arg0)
abbrev a1 : IVec S2x1600000 32 := m ((c : Thread nD τ).loc main_arg1)
abbrev a2 : IVec S100000 32 := m ((c : Thread nD τ).loc main_arg2)
abbrev a3 : FVec Ideal S128x64 .f32 := m ((c : Thread nD τ).loc main_arg3)
abbrev a4 : FVec Ideal S64x128 .f32 := m ((c : Thread nD τ).loc main_arg4)
abbrev a5 : FVec Ideal S128 .f32 := m ((c : Thread nD τ).loc main_arg5)
abbrev a6 : FVec Ideal S128x64 .f32 := m ((c : Thread nD τ).loc main_arg6)
abbrev a7 : FVec Ideal S64 .f32 := m ((c : Thread nD τ).loc main_arg7)
abbrev a8 : FVec Ideal S1x64 .f32 := m ((c : Thread nD τ).loc main_arg8)
abbrev a9 : FVec Ideal S1 .f32 := m ((c : Thread nD τ).loc main_arg9)

/-! ## After the first host stretch (the first region's entry) -/

theorem w1_arg2 : W1 m ρ c (Proc.devRef .tc main_arg2) = a2 m c := by
  show StableHlo.after hostOps0 (W0 m ρ c) (Proc.devRef .tc main_arg2) = _; after_results_simp
theorem w1_arg3 : W1 m ρ c (Proc.devRef .tc main_arg3) = a3 m c := by
  show StableHlo.after hostOps0 (W0 m ρ c) (Proc.devRef .tc main_arg3) = _; after_results_simp
theorem w1_arg4 : W1 m ρ c (Proc.devRef .tc main_arg4) = a4 m c := by
  show StableHlo.after hostOps0 (W0 m ρ c) (Proc.devRef .tc main_arg4) = _; after_results_simp
theorem w1_arg5 : W1 m ρ c (Proc.devRef .tc main_arg5) = a5 m c := by
  show StableHlo.after hostOps0 (W0 m ρ c) (Proc.devRef .tc main_arg5) = _; after_results_simp
theorem w1_arg6 : W1 m ρ c (Proc.devRef .tc main_arg6) = a6 m c := by
  show StableHlo.after hostOps0 (W0 m ρ c) (Proc.devRef .tc main_arg6) = _; after_results_simp
theorem w1_arg7 : W1 m ρ c (Proc.devRef .tc main_arg7) = a7 m c := by
  show StableHlo.after hostOps0 (W0 m ρ c) (Proc.devRef .tc main_arg7) = _; after_results_simp
theorem w1_arg8 : W1 m ρ c (Proc.devRef .tc main_arg8) = a8 m c := by
  show StableHlo.after hostOps0 (W0 m ρ c) (Proc.devRef .tc main_arg8) = _; after_results_simp
theorem w1_arg9 : W1 m ρ c (Proc.devRef .tc main_arg9) = a9 m c := by
  show StableHlo.after hostOps0 (W0 m ρ c) (Proc.devRef .tc main_arg9) = _; after_results_simp

/-- The source list with self loops. -/
theorem w1_src : W1 m ρ c (Proc.devRef .tc main_v3) = val_main_v3 (F := Ideal) (a1 m c) := by
  show StableHlo.after hostOps0 (W0 m ρ c) (Proc.devRef .tc main_v3) = _; after_results_simp; rfl
/-- The destination list with self loops. -/
theorem w1_dst : W1 m ρ c (Proc.devRef .tc main_v6) = val_main_v6 (F := Ideal) (a1 m c) := by
  show StableHlo.after hostOps0 (W0 m ρ c) (Proc.devRef .tc main_v6) = _; after_results_simp; rfl
/-- The edge normalisation. -/
theorem w1_norm : W1 m ρ c (Proc.devRef .tc main_v28) = val_main_v28 (F := Ideal) (a1 m c) := by
  show StableHlo.after hostOps0 (W0 m ρ c) (Proc.devRef .tc main_v28) = _; after_results_simp; rfl
/-- The node ids as a column. -/
theorem w1_ids : W1 m ρ c (Proc.devRef .tc main_v29)
    = shapeCast S100000x1 (a0 m c) shapeCasts_S100000_S100000x1 := by
  show StableHlo.after hostOps0 (W0 m ρ c) (Proc.devRef .tc main_v29) = _; after_results_simp; rfl

/-! ## Through the embedding and the first linear layer -/

section
variable (hr : ∀ p : Fin 100000, ((a0 m c) (ix1 p)).toNat < 128)
include hr

/-- The embedded features. -/
theorem w2_x : W2 m ρ c (Proc.devRef .tc main_v30) = embedR (a0 m c) (a3 m c) := by
  refine (W2_arr m ρ c 2).trans ((arr0 (V1 m ρ) c (a0 m c) hr (fun p => ?_)).trans ?_)
  · show W1 m ρ c (Proc.devRef .tc main_v29) (ix2 p (0 : Fin 1)) = _
    rw [w1_ids]
    exact Cert.LibColumn.shapeCast_a_a1_apply _ _ p 0
  · exact congrArg (embedR (a0 m c)) (w1_arg3 m ρ c)

/-- The first linear layer of the embedded features. -/
theorem w3_h1 : W3 m ρ c (Proc.devRef .tc main_v31) = val_main_v36 (F := Ideal) (a0 m c) (a3 m c) (a4 m c) := by
  refine (W3_arr m ρ c 2).trans ((arr1 (V2 m ρ) c).trans ?_)
  exact (congrArg₂ lin1R (w2_x m ρ c hr) ((W2_of_ne m ρ c main_arg4 (by decide)).trans (w1_arg4 m ρ c))).trans rfl

end

/-! ## What the first two regions leave alone -/

theorem w3_src : W3 m ρ c (Proc.devRef .tc main_v3) = val_main_v3 (F := Ideal) (a1 m c) :=
  (W3_of_ne m ρ c main_v3 (by decide)).trans ((W2_of_ne m ρ c main_v3 (by decide)).trans (w1_src m ρ c))
theorem w3_dst : W3 m ρ c (Proc.devRef .tc main_v6) = val_main_v6 (F := Ideal) (a1 m c) :=
  (W3_of_ne m ρ c main_v6 (by decide)).trans ((W2_of_ne m ρ c main_v6 (by decide)).trans (w1_dst m ρ c))
theorem w3_norm : W3 m ρ c (Proc.devRef .tc main_v28) = val_main_v28 (F := Ideal) (a1 m c) :=
  (W3_of_ne m ρ c main_v28 (by decide)).trans ((W2_of_ne m ρ c main_v28 (by decide)).trans (w1_norm m ρ c))
theorem w3_arg2 : W3 m ρ c (Proc.devRef .tc main_arg2) = a2 m c :=
  (W3_of_ne m ρ c main_arg2 (by decide)).trans ((W2_of_ne m ρ c main_arg2 (by decide)).trans (w1_arg2 m ρ c))
theorem w3_arg5 : W3 m ρ c (Proc.devRef .tc main_arg5) = a5 m c :=
  (W3_of_ne m ρ c main_arg5 (by decide)).trans ((W2_of_ne m ρ c main_arg5 (by decide)).trans (w1_arg5 m ρ c))
theorem w3_arg6 : W3 m ρ c (Proc.devRef .tc main_arg6) = a6 m c :=
  (W3_of_ne m ρ c main_arg6 (by decide)).trans ((W2_of_ne m ρ c main_arg6 (by decide)).trans (w1_arg6 m ρ c))
theorem w3_arg7 : W3 m ρ c (Proc.devRef .tc main_arg7) = a7 m c :=
  (W3_of_ne m ρ c main_arg7 (by decide)).trans ((W2_of_ne m ρ c main_arg7 (by decide)).trans (w1_arg7 m ρ c))
theorem w3_arg8 : W3 m ρ c (Proc.devRef .tc main_arg8) = a8 m c :=
  (W3_of_ne m ρ c main_arg8 (by decide)).trans ((W2_of_ne m ρ c main_arg8 (by decide)).trans (w1_arg8 m ρ c))
theorem w3_arg9 : W3 m ρ c (Proc.devRef .tc main_arg9) = a9 m c :=
  (W3_of_ne m ρ c main_arg9 (by decide)).trans ((W2_of_ne m ρ c main_arg9 (by decide)).trans (w1_arg9 m ρ c))

/-! ## After the second host stretch (the third region's entry) -/

theorem w4_src : W4 m ρ c (Proc.devRef .tc main_v3) = val_main_v3 (F := Ideal) (a1 m c) := by
  show StableHlo.after hostOps2 (W3 m ρ c) (Proc.devRef .tc main_v3) = _; after_results_simp; exact w3_src m ρ c
theorem w4_dst : W4 m ρ c (Proc.devRef .tc main_v6) = val_main_v6 (F := Ideal) (a1 m c) := by
  show StableHlo.after hostOps2 (W3 m ρ c) (Proc.devRef .tc main_v6) = _; after_results_simp; exact w3_dst m ρ c
theorem w4_norm : W4 m ρ c (Proc.devRef .tc main_v28) = val_main_v28 (F := Ideal) (a1 m c) := by
  show StableHlo.after hostOps2 (W3 m ρ c) (Proc.devRef .tc main_v28) = _; after_results_simp; exact w3_norm m ρ c
theorem w4_arg2 : W4 m ρ c (Proc.devRef .tc main_arg2) = a2 m c := by
  show StableHlo.after hostOps2 (W3 m ρ c) (Proc.devRef .tc main_arg2) = _; after_results_simp; exact w3_arg2 m ρ c
theorem w4_arg6 : W4 m ρ c (Proc.devRef .tc main_arg6) = a6 m c := by
  show StableHlo.after hostOps2 (W3 m ρ c) (Proc.devRef .tc main_arg6) = _; after_results_simp; exact w3_arg6 m ρ c
theorem w4_arg7 : W4 m ρ c (Proc.devRef .tc main_arg7) = a7 m c := by
  show StableHlo.after hostOps2 (W3 m ρ c) (Proc.devRef .tc main_arg7) = _; after_results_simp; exact w3_arg7 m ρ c
theorem w4_arg8 : W4 m ρ c (Proc.devRef .tc main_arg8) = a8 m c := by
  show StableHlo.after hostOps2 (W3 m ρ c) (Proc.devRef .tc main_arg8) = _; after_results_simp; exact w3_arg8 m ρ c
theorem w4_arg9 : W4 m ρ c (Proc.devRef .tc main_arg9) = a9 m c := by
  show StableHlo.after hostOps2 (W3 m ρ c) (Proc.devRef .tc main_arg9) = _; after_results_simp; exact w3_arg9 m ρ c

/-- The first layer's bias as a row. -/
theorem w4_bias : W4 m ρ c (Proc.devRef .tc main_v45) = shapeCast S1x128 (a5 m c) shapeCasts_S128_S1x128 := by
  show StableHlo.after hostOps2 (W3 m ρ c) (Proc.devRef .tc main_v45) = _; after_results_simp
  rw [w3_arg5]; rfl

section
variable (hr : ∀ p : Fin 100000, ((a0 m c) (ix1 p)).toNat < 128)
include hr

/-- The first layer's aggregation over the edges. -/
theorem w4_agg : W4 m ρ c (Proc.devRef .tc main_v44)
    = val_main_v49 (F := Ideal) (a0 m c) (a1 m c) (a3 m c) (a4 m c) := by
  show StableHlo.after hostOps2 (W3 m ρ c) (Proc.devRef .tc main_v44) = _; after_results_simp
  rw [w3_h1 m ρ c hr, w3_src, w3_dst, w3_norm]; rfl

/-- The first layer's output: bias and rectification of the aggregation. -/
theorem w5_x1 : W5 m ρ c (Proc.devRef .tc main_v46)
    = val_main_v53 (F := Ideal) (a0 m c) (a1 m c) (a3 m c) (a4 m c) (a5 m c) := by
  refine (W5_arr m ρ c 2).trans ((arr2 (V4 m ρ) c (a5 m c) (fun k => ?_)).trans ?_)
  · show W4 m ρ c (Proc.devRef .tc main_v45) (ix2 (0 : Fin 1) k) = _
    rw [w4_bias]
    exact shapeCast_a_1a_apply _ _ 0 k
  · exact (congrArg (fun z => act1R z (a5 m c)) (w4_agg m ρ c hr)).trans rfl

end

end Cert.KernelIdeal.Fold

end
-- ==== Proof.Tile3.lean ====
/-
  The second linear layer's kernel, from blocks to the whole array.

  As for the first layer: 20 grid points, point t reads rows 5000·t … 5000·t + 4999 of the 128 hidden features and the
  whole 128 × 64 weight matrix and writes the same rows of the result; each written block is its block of x · W₂, and the
  20 blocks cover all 100000 rows, so after the run the result array IS x · W₂ of the arrays the region found.
-/
import proofs.«421451_j11776800326003_1_alg».proof.Proof.Gen.KernelIdeal.Frame
import proofs.«421451_j11776800326003_1_alg».proof.Proof.PayMatmul

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps over the grid: the feature and result windows are at block row t, column block 0; the weight
    window stays at block (0, 0). -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of x · W₂. -/
theorem flushed3 (c : Dev nD) (t : Fin cfg3.N) :
    (dat3 V c).flushed 2 t = ((cfg3.win 2).blk t).view.read (Elt Ideal) (lin2R (V c main_v46) (V c main_arg6)) := by
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S128x64) zero_offsets3]
  obtain ⟨e0, e1, e2, e3, e4, e5⟩ := index_maps3 t
  have ht : t.val < 20 := t.isLt
  funext j
  obtain ⟨a, b, rfl⟩ : ∃ (a : Fin 5000) (b : Fin 64), j = ix2 a b := ⟨j 0, j 1, eq_ix2 j⟩
  have hemb : ((cfg3.win 2).blk t).view.emb (ix2 a b) = ix2 (⟨t.val * 5000 + a.val, by omega⟩ : Fin 100000) b := by
    funext ax; apply Fin.ext
    match ax with
    | ⟨0, _⟩ => show win3_2.index t (0 : Fin 2) * 5000 + 1 * a.val = t.val * 5000 + a.val; omega
    | ⟨1, _⟩ => show win3_2.index t (1 : Fin 2) * 64 + 1 * b.val = b.val; omega
  show k3_pay1 (iblk3 V c 0 t) (iblk3 V c 1 t) (ix2 a b)
    = lin2R (V c main_v46) (V c main_arg6) (((cfg3.win 2).blk t).view.emb (ix2 a b))
  rw [hemb]
  refine lin2_block (V c main_v46) (V c main_arg6) (iblk3 V c 0 t) (iblk3 V c 1 t) t.val ht ?_ ?_ a b
  · intro a' k
    show V c main_v46 (((cfg3.win 0).blk t).view.emb (ix2 a' k)) = V c main_v46 _
    congr 1
    funext ax; apply Fin.ext
    match ax with
    | ⟨0, _⟩ => show win3_0.index t (0 : Fin 2) * 5000 + 1 * a'.val = t.val * 5000 + a'.val; omega
    | ⟨1, _⟩ => show win3_0.index t (1 : Fin 2) * 128 + 1 * k.val = k.val; omega
  · intro k b'
    show V c main_arg6 (((cfg3.win 1).blk t).view.emb (ix2 k b')) = V c main_arg6 _
    congr 1
    funext ax; apply Fin.ext
    match ax with
    | ⟨0, _⟩ => show win3_1.index t (0 : Fin 2) * 128 + 1 * k.val = k.val; omega
    | ⟨1, _⟩ => show win3_1.index t (1 : Fin 2) * 64 + 1 * b'.val = b'.val; omega

/-- An index of the result array is in point t's block iff each coordinate is in the block's range on its axis. -/
theorem mem_block3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v47).slice (win3_2.rect t)).set ↔ _
  rw [View.set_slice_whole, Rect.mem_set_unit]
  exact Iff.rfl

/-- Every row lies in the block of the point numbered by the row's quotient by 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hq : (i 0).val / 5000 < 20 := by omega
  refine ⟨⟨(i 0).val / 5000, hq⟩, flush3_2 _, ?_⟩
  rw [mem_block3]
  obtain ⟨e0, e1, e2, e3, e4, e5⟩ := index_maps3 ⟨(i 0).val / 5000, hq⟩
  intro a
  match a with
  | ⟨0, _⟩ =>
    show win3_2.index ⟨(i 0).val / 5000, hq⟩ (0 : Fin 2) * 5000 ≤ (i 0).val
      ∧ (i 0).val < win3_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hq⟩ (1 : Fin 2) * 64 ≤ (i 1).val
      ∧ (i 1).val < win3_2.index ⟨(i 0).val / 5000, hq⟩ (1 : Fin 2) * 64 + 64
    rw [e5]; omega

/-- After the run the result array is x · W₂ of the arrays the region found. -/
theorem arr3 (c : Dev nD) : (dat3 V c).arrAt 2 cfg3.N = lin2R (V c main_v46) (V c main_arg6) :=
  (dat3 V c).arrAt_eq_of_cover 2 _ (fun t _ => flushed3 V c t) (cover3)

end Cert.KernelIdeal.Tiles

end
-- ==== Proof.Tile4.lean ====
/-
  The second layer's bias-and-rectification kernel, from blocks to the whole array.

  The kernel runs at 20 grid points. Point t reads rows 5000·t … 5000·t + 4999 of the aggregated features together with
  the bias, which is a single row of 64 entries and is the same at every point, and it writes the same rows of the result.
  What point t writes is max(row + b₂, 0) on each of its rows, which is that block of rows of max(· + b₂, 0) applied to the
  whole array (the block lemma). Row i lies in the block of exactly one point, t = ⌊i / 5000⌋, and t ranges over 0 … 19
  as i ranges over 0 … 99999; so the 20 blocks are disjoint, together they cover every row, and after the run the result
  array IS max(· + b₂, 0) of the array the region found.
-/
import proofs.«421451_j11776800326003_1_alg».proof.Proof.Gen.KernelIdeal.Frame
import proofs.«421451_j11776800326003_1_alg».proof.Proof.PayBias

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset vector (0, 0) is the constant-zero function on the two axes. -/
theorem zero_offsets4 : (![0, 0] : Fin 2 → Nat) = fun _ => 0 := funext fun a => by fin_cases a <;> rfl

/-- The printed index maps over the grid: the feature and result windows are at block row t, column block 0; the bias
    window stays at block (0, 0). -/
theorem index_maps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t (rows 5000·t … 5000·t + 4999) of max(· + b₂, 0) of the feature array, b₂ being
    the vector whose entries the bias row holds. -/
theorem flushed4 (c : Dev nD) (bv : FVec Ideal S64 .f32) (hb : ∀ k : Fin 64, V c main_v61 (ix2 (0 : Fin 1) k) = bv (ix1 k))
    (t : Fin cfg4.N) :
    (dat4 V c).flushed 2 t = ((cfg4.win 2).blk t).view.read (Elt Ideal) (act2R (V c main_v60) bv) := by
  show (cfg4.win 2).cut (grid4.coords t) ((dat4 V c).after 2 t) = _
  rw [after4_2]
  unfold out4_2
  rw [View.canon_unit_zero zero_offsets4]
  simp only [View.ld_unit_zero (S := S5000x64) zero_offsets4, View.ld_unit_zero (S := S1x64) zero_offsets4]
  obtain ⟨e0, e1, e2, e3, e4, e5⟩ := index_maps4 t
  have ht : t.val < 20 := t.isLt
  funext j
  obtain ⟨a, b, rfl⟩ : ∃ (a : Fin 5000) (b : Fin 64), j = ix2 a b := ⟨j 0, j 1, eq_ix2 j⟩
  have hemb : ((cfg4.win 2).blk t).view.emb (ix2 a b) = ix2 (⟨t.val * 5000 + a.val, by omega⟩ : Fin 100000) b := by
    funext ax; apply Fin.ext
    match ax with
    | ⟨0, _⟩ => show win4_2.index t (0 : Fin 2) * 5000 + 1 * a.val = t.val * 5000 + a.val; omega
    | ⟨1, _⟩ => show win4_2.index t (1 : Fin 2) * 64 + 1 * b.val = b.val; omega
  show k4_pay1 (iblk4 V c 0 t) (iblk4 V c 1 t) (ix2 a b)
    = act2R (V c main_v60) bv (((cfg4.win 2).blk t).view.emb (ix2 a b))
  rw [hemb]
  refine act2_block (V c main_v60) bv (iblk4 V c 0 t) (iblk4 V c 1 t) t.val ht ?_ ?_ a b
  · intro a' k
    show V c main_v60 (((cfg4.win 0).blk t).view.emb (ix2 a' k)) = V c main_v60 _
    congr 1
    funext ax; apply Fin.ext
    match ax with
    | ⟨0, _⟩ => show win4_0.index t (0 : Fin 2) * 5000 + 1 * a'.val = t.val * 5000 + a'.val; omega
    | ⟨1, _⟩ => show win4_0.index t (1 : Fin 2) * 64 + 1 * k.val = k.val; omega
  · intro k
    show V c main_v61 (((cfg4.win 1).blk t).view.emb (ix2 (0 : Fin 1) k)) = bv (ix1 k)
    rw [← hb k]
    congr 1
    funext ax; apply Fin.ext
    match ax with
    | ⟨0, _⟩ => show win4_1.index t (0 : Fin 2) * 1 + 1 * (0 : Fin 1).val = (0 : Fin 1).val; omega
    | ⟨1, _⟩ => show win4_1.index t (1 : Fin 2) * 64 + 1 * k.val = k.val; omega

/-- An index of the result array is in point t's block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v62).slice (win4_2.rect t)).set ↔ _
  rw [View.set_slice_whole, Rect.mem_set_unit]
  exact Iff.rfl

/-- Every row lies in the block of the point numbered by the row's quotient by 5000, and that quotient is below 20. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hq : (i 0).val / 5000 < 20 := by omega
  refine ⟨⟨(i 0).val / 5000, hq⟩, flush4_2 _, ?_⟩
  rw [mem_block4]
  obtain ⟨e0, e1, e2, e3, e4, e5⟩ := index_maps4 ⟨(i 0).val / 5000, hq⟩
  intro a
  match a with
  | ⟨0, _⟩ =>
    show win4_2.index ⟨(i 0).val / 5000, hq⟩ (0 : Fin 2) * 5000 ≤ (i 0).val
      ∧ (i 0).val < win4_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hq⟩ (1 : Fin 2) * 64 ≤ (i 1).val
      ∧ (i 1).val < win4_2.index ⟨(i 0).val / 5000, hq⟩ (1 : Fin 2) * 64 + 64
    rw [e5]; omega

/-- After the run the result array is max(· + b₂, 0) of the feature array the region found, b₂ being the vector whose
    entries the bias row holds. -/
theorem arr4 (c : Dev nD) (bv : FVec Ideal S64 .f32) (hb : ∀ k : Fin 64, V c main_v61 (ix2 (0 : Fin 1) k) = bv (ix1 k)) :
    (dat4 V c).arrAt 2 cfg4.N = act2R (V c main_v60) bv :=
  (dat4 V c).arrAt_eq_of_cover 2 _ (fun t _ => flushed4 V c bv hb t) (cover4)

end Cert.KernelIdeal.Tiles

end
-- ==== Proof.PayHead.lean ====
/-
  The head inside its kernel.

  One kernel instance holds the pooled sums of all 2048 graphs, their node counts as a column, the head's weights as a
  column and its bias. It divides each graph's sums by max(count, 1), multiplies the row with the weights, adds the bias
  and applies the logistic function. On the extended reals the logistic function is 1 / (1 + exp(−x)) by definition,
  which is how the host spells it; the rest is the same arithmetic entry by entry, and the product with a single
  column is the same finite sum on both sides.
-/
import proofs.«421451_j11776800326003_1_alg».proof.Proof.Gen.KernelIdeal.Skeleton
import proofs.«421451_j11776800326003_1_alg».proof.Proof.RefOps
import proofs.«421451_j11776800326003_1_alg».proof.Proof.LibDotPlain
import proofs.«421451_j11776800326003_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.Gcn

section RefSide
open Cert.ReferenceIdeal Cert.ReferenceIdeal.Gen Cert.ReferenceIdeal.Read Idealize.ShloMosaic Idealize.ShloMosaic.ValueIdx

/-- The host's product of a 2048×64 array with a 64×1 column, at (g, 0): the sum over the contracted coordinate. -/
private theorem refDot_apply (y0 : FVec Ideal S2048x64 .f32) (y1 : FVec Ideal S64x1 .f32) (g : Fin 2048) :
    Host.dotGeneral (F := Ideal) (φ₁ := .f32) (φ₂ := .f32) dot_S2048x64_S64x1_S2048x1_1_0_0_1_n_n none y0 y1 (ix2 g (0 : Fin 1))
      = ∑ k : Fin 64, y0 (ix2 g k) * y1 (ix2 k (0 : Fin 1)) := by
  simp only [Host.dotGeneral]
  rw [Ideal.dotGeneral_apply, ← Equiv.sum_comp (ValueIdx.contrEquiv1 dot_S2048x64_S64x1_S2048x1_1_0_0_1_n_n 64 rfl rfl).symm]
  refine Finset.sum_congr rfl fun k _ => ?_
  have hk := ValueIdx.contrEquiv1_symm_val dot_S2048x64_S64x1_S2048x1_1_0_0_1_n_n 64 rfl rfl k
  have el : dot_S2048x64_S64x1_S2048x1_1_0_0_1_n_n.lhsIdx (ix2 g (0 : Fin 1)) ((ValueIdx.contrEquiv1 dot_S2048x64_S64x1_S2048x1_1_0_0_1_n_n 64 rfl rfl).symm k) = ix2 g k := funext fun a => Fin.ext (by
    match a with
    | ⟨0, _⟩ => exact lhs_main_v85_0 _ _
    | ⟨1, _⟩ => exact (lhs_main_v85_1 _ _).trans hk)
  have er : dot_S2048x64_S64x1_S2048x1_1_0_0_1_n_n.rhsIdx (ix2 g (0 : Fin 1)) ((ValueIdx.contrEquiv1 dot_S2048x64_S64x1_S2048x1_1_0_0_1_n_n 64 rfl rfl).symm k) = ix2 k (0 : Fin 1) := funext fun a => Fin.ext (by
    match a with
    | ⟨0, _⟩ => exact (rhs_main_v85_0 _ _).trans hk
    | ⟨1, _⟩ => exact rhs_main_v85_1 _ _)
  rw [el, er]

/-- A 2048×1 column laid out as a vector of length 2048 reads, at g, the column's entry (g, 0). -/
private theorem refFlat_apply (y : FVec Ideal S2048x1 .f32) (g : Fin 2048) :
    shapeCast S2048 y shapeCasts_S2048x1_S2048 (ix1 g) = y (ix2 g (0 : Fin 1)) :=
  shapeCast_apply y shapeCasts_S2048x1_S2048 (ix1 g) (ix2 g (0 : Fin 1))
    (by rw [Shape.rowMajor_val_two, Shape.rowMajor_val_one]; show g.val * 1 + 0 = g.val; omega)

/-- A vector of length 2048 laid along the rows of a 2048×1 column reads, at (g, 0), the vector at g. -/
private theorem refCol_apply (y : FVec Ideal S2048 .f32) (g : Fin 2048) :
    broadcastInDim S2048x1 ![0] bcast_S2048_S2048x1_0 y (ix2 g (0 : Fin 1)) = y (ix1 g) :=
  broadcastInDim_apply _ bcast_S2048_S2048x1_0 y (ix2 g (0 : Fin 1)) (ix1 g) (fun a => match a with
    | ⟨0, _⟩ => by show g.val = if (2048 : Nat) = 1 then 0 else g.val; rw [if_neg (by decide)])

/-- A 2048×1 column laid along the rows of a 2048×64 array reads, at (g, k), the column at (g, 0). -/
private theorem refRows_apply (y : FVec Ideal S2048x1 .f32) (g : Fin 2048) (k : Fin 64) :
    broadcastInDim S2048x64 ![0, 1] bcast_S2048x1_S2048x64_0_1 y (ix2 g k) = y (ix2 g (0 : Fin 1)) :=
  broadcastInDim_apply _ bcast_S2048x1_S2048x64_0_1 y (ix2 g k) (ix2 g (0 : Fin 1)) (fun a => match a with
    | ⟨0, _⟩ => by show g.val = if (2048 : Nat) = 1 then 0 else g.val; rw [if_neg (by decide)]
    | ⟨1, _⟩ => by show 0 = if (1 : Nat) = 1 then 0 else k.val; rw [if_pos rfl])

/-- The weight row transposed to a column reads, at (k, 0), the row at (0, k). -/
private theorem refW_apply (fcw : FVec Ideal S1x64 .f32) (k : Fin 64) :
    val_main_v84 (F := Ideal) fcw (ix2 k (0 : Fin 1)) = fcw (ix2 (0 : Fin 1) k) := by
  rw [val_main_v84_apply]
  refine congrArg fcw (funext fun a => ?_)
  match a with
  | ⟨0, _⟩ => rfl
  | ⟨1, _⟩ => rfl

/-- The bias laid out as a 2048×1 column reads the bias everywhere. -/
private theorem refB_apply (fcb : FVec Ideal S1 .f32) (g : Fin 2048) :
    val_main_v87 (F := Ideal) fcb (ix2 g (0 : Fin 1)) = fcb (ix1 (0 : Fin 1)) := by
  rw [val_main_v87_apply, val_main_v86_apply]
  refine congrArg fcb (funext fun a => ?_)
  match a with
  | ⟨0, _⟩ => rfl

/-- The host's head at graph g, as arithmetic on the extended reals. -/
private theorem refHead_apply (ps : FVec Ideal S2048x64 .f32) (cnt : FVec Ideal S2048 .f32) (fcw : FVec Ideal S1x64 .f32)
    (fcb : FVec Ideal S1 .f32) (g : Fin 2048) :
    Cert.Gcn.headR ps cnt fcw fcb (ix1 g)
      = Ideal.div (Ideal.ofBits .f32 0x3F800000#32) (Ideal.ofBits .f32 0x3F800000#32 + Ideal.exp (-((∑ k : Fin 64,
          Ideal.div (ps (ix2 g k)) (max (cnt (ix1 g)) (Ideal.ofBits .f32 0x3F800000#32)) * fcw (ix2 (0 : Fin 1) k))
            + fcb (ix1 (0 : Fin 1))))) := by
  unfold Cert.Gcn.headR
  rw [refFlat_apply]
  change Ideal.div (val_main_v93 (F := Ideal) (ix2 g (0 : Fin 1))) (val_main_v91 (F := Ideal) (ix2 g (0 : Fin 1)) + Ideal.exp (-(Host.dotGeneral (F := Ideal) (φ₁ := .f32) (φ₂ := .f32) dot_S2048x64_S64x1_S2048x1_1_0_0_1_n_n none _ _ (ix2 g (0 : Fin 1)) + val_main_v87 (F := Ideal) fcb (ix2 g (0 : Fin 1))))) = _
  rw [val_main_v93_apply, val_main_cst_18_apply, val_main_v91_apply, val_main_cst_17_apply, Ideal.ofBits_def, refDot_apply, refB_apply]
  congr 5
  refine Finset.sum_congr rfl fun k _ => ?_
  rw [refW_apply]
  rw [hostDivf_apply, refRows_apply, refCol_apply, maximumf_apply, val_main_v79_apply, val_main_cst_16_apply, Ideal.ofBits_def]

end RefSide

section KerSide
open Cert.KernelIdeal Cert.KernelIdeal.Gen Idealize.ShloMosaic Idealize.ShloMosaic.ValueIdx

/-- The kernel's arithmetic for graph g: the logistic function of the weighted sum of the graph's pooled sums, each
    divided by max(count, 1), plus the bias. -/
private theorem kerHead_apply (x0 : Vec Ideal S2048x64 .f32) (x1 : Vec Ideal S2048x1 .f32) (x2 : Vec Ideal S64x1 .f32)
    (x3 : Vec Ideal S1x1 .f32) (g : Fin 2048) :
    k5_pay1 (F := Ideal) x1 x0 x2 x3 (ix2 g (0 : Fin 1))
      = Ideal.logistic ((∑ c : Fin 64, Ideal.div (x0 (ix2 g c)) (max (x1 (ix2 g (0 : Fin 1))) (Ideal.ofBits .f32 0x3F800000#32))
            * x2 (ix2 c (0 : Fin 1))) + x3 (ix2 (0 : Fin 1) (0 : Fin 1))) := by
  have hmm : ∀ (A : FVec Ideal S2048x64 .f32) (B : FVec Ideal S64x1 .f32),
      matmul dot_S2048x64_S64x1_S2048x1_1_0_0_1_n_n (some .fp32) A B (constant (F := Ideal) S2048x1 .f32 0x00000000#32) (ix2 g (0 : Fin 1))
        = ∑ c : Fin 64, A (ix2 g c) * B (ix2 c (0 : Fin 1)) :=
    fun A B => Cert.LibDotPlain.matmul_zero_apply dot_S2048x64_S64x1_S2048x1_1_0_0_1_n_n_wf _ A B g 0
  have hb : broadcastTo S2048x1 x3 broadcasts_S1x1_S2048x1 (ix2 g (0 : Fin 1)) = x3 (ix2 (0 : Fin 1) (0 : Fin 1)) := by
    refine broadcastTo_apply x3 broadcasts_S1x1_S2048x1 (ix2 g (0 : Fin 1)) (ix2 (0 : Fin 1) (0 : Fin 1)) fun ax => ?_
    match ax with
    | ⟨0, _⟩ => rfl
    | ⟨1, _⟩ => rfl
  unfold k5_pay1
  change FloatOps.logistic (addf _ _ (ix2 g (0 : Fin 1))) = _
  rw [Ideal.logistic_def, addf_apply, hmm, shapeCast_self, shapeCast_self, shapeCast_self, shapeCast_self, hb]
  congr 2
  refine Finset.sum_congr rfl fun c _ => ?_
  rw [divf_apply, Cert.LibColumn.broadcastTo_a1_ab_apply, maximumf_apply, broadcast_apply]
  rfl

end KerSide

open Cert.KernelIdeal Cert.KernelIdeal.Gen Idealize.ShloMosaic Idealize.ShloMosaic.ValueIdx

/-- The kernel's result for graph g is the host's head at g, when the kernel's column of counts, column of weights and
    1×1 bias hold the host's vector of counts, row of weights and bias. -/
theorem head_point (ps : FVec Ideal S2048x64 .f32) (cnt : FVec Ideal S2048 .f32) (fcw : FVec Ideal S1x64 .f32)
    (fcb : FVec Ideal S1 .f32)
    (x0 : Vec Ideal S2048x64 .f32) (x1 : Vec Ideal S2048x1 .f32) (x2 : Vec Ideal S64x1 .f32) (x3 : Vec Ideal S1x1 .f32)
    (h0 : ∀ (g : Fin 2048) (k : Fin 64), x0 (ix2 g k) = ps (ix2 g k))
    (h1 : ∀ g : Fin 2048, x1 (ix2 g (0 : Fin 1)) = cnt (ix1 g))
    (h2 : ∀ k : Fin 64, x2 (ix2 k (0 : Fin 1)) = fcw (ix2 (0 : Fin 1) k))
    (h3 : x3 (ix2 (0 : Fin 1) (0 : Fin 1)) = fcb (ix1 (0 : Fin 1)))
    (g : Fin 2048) :
    k5_pay1 (F := Ideal) x1 x0 x2 x3 (ix2 g (0 : Fin 1)) = headR ps cnt fcw fcb (ix1 g) := by
  rw [kerHead_apply, refHead_apply, h3, h1]
  simp only [h0, h2]
  rw [Ideal.ofBits_one_f32]
  rfl

end Cert.Gcn

end
-- ==== Proof.Tile5.lean ====
/-
  The head's kernel, from its one block to the whole array.

  The kernel runs at a single grid point, every window one block that is its whole array: the pooled sums, the counts as
  a column, the weights as a column, the bias, and the result column. What the point writes is, for every graph g, the
  head's value at g (the point lemma); its one block covers the whole result column.
-/
import proofs.«421451_j11776800326003_1_alg».proof.Proof.Gen.KernelIdeal.Frame
import proofs.«421451_j11776800326003_1_alg».proof.Proof.PayHead

set_option maxRecDepth 16384

noncomputable section

namespace Cert.KernelIdeal.Tiles

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets5 : (![0, 0] : Fin 2 → Nat) = fun _ => 0 := funext fun a => by fin_cases a <;> rfl

/-- The printed index maps at the one grid point: every window is at block (0, 0). -/
theorem index_maps5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The head as a column over the graphs: entry (g, 0) is the head's value at g. -/
abbrev headCol (ps : FVec Ideal S2048x64 .f32) (cnt : FVec Ideal S2048 .f32) (fcw : FVec Ideal S1x64 .f32)
    (fcb : FVec Ideal S1 .f32) : S2048x1.Idx → Elt Ideal .f32 :=
  fun i => headR ps cnt fcw fcb (ix1 (⟨(i 0).val, (i 0).isLt⟩ : Fin 2048))

variable (c : Dev nD) (cnt : FVec Ideal S2048 .f32) (fcw : FVec Ideal S1x64 .f32) (fcb : FVec Ideal S1 .f32)

/-- What the point writes back is the head's column, when the counts column, the weight column and the bias cell the
    region finds hold the vector of counts, the row of weights and the bias. -/
theorem flushed5 (h1 : ∀ g : Fin 2048, V c main_v72 (ix2 g (0 : Fin 1)) = cnt (ix1 g))
    (h2 : ∀ k : Fin 64, V c main_v70 (ix2 k (0 : Fin 1)) = fcw (ix2 (0 : Fin 1) k))
    (h3 : V c main_v71 (ix2 (0 : Fin 1) (0 : Fin 1)) = fcb (ix1 (0 : Fin 1))) (t : Fin cfg5.N) :
    (dat5 V c).flushed 4 t
      = ((cfg5.win 4).blk t).view.read (Elt Ideal) (headCol (V c main_v69) cnt fcw fcb) := by
  show (cfg5.win 4).cut (grid5.coords t) ((dat5 V c).after 4 t) = _
  rw [after5_4]
  unfold out5_4
  rw [View.canon_unit_zero zero_offsets5]
  simp only [View.ld_unit_zero (S := S2048x1) zero_offsets5, View.ld_unit_zero (S := S2048x64) zero_offsets5,
    View.ld_unit_zero (S := S64x1) zero_offsets5, View.ld_unit_zero (S := S1x1) zero_offsets5]
  obtain ⟨e00, e01, e10, e11, e20, e21, e30, e31, e40, e41⟩ := index_maps5 t
  funext j
  obtain ⟨g, u, rfl⟩ : ∃ (g : Fin 2048) (u : Fin 1), j = ix2 g u := ⟨j 0, j 1, eq_ix2 j⟩
  obtain rfl : u = 0 := Fin.ext (by omega)
  have hemb : ((cfg5.win 4).blk t).view.emb (ix2 g (0 : Fin 1)) = ix2 g (0 : Fin 1) := by
    funext ax; apply Fin.ext
    match ax with
    | ⟨0, _⟩ => show win5_4.index t (0 : Fin 2) * 2048 + 1 * g.val = g.val; omega
    | ⟨1, _⟩ => show win5_4.index t (1 : Fin 2) * 1 + 1 * 0 = 0; omega
  show k5_pay1 (iblk5 V c 1 t) (iblk5 V c 0 t) (iblk5 V c 2 t) (iblk5 V c 3 t) (ix2 g (0 : Fin 1))
    = headCol (V c main_v69) cnt fcw fcb (((cfg5.win 4).blk t).view.emb (ix2 g (0 : Fin 1)))
  rw [hemb]
  refine (head_point (V c main_v69) cnt fcw fcb (iblk5 V c 0 t) (iblk5 V c 1 t) (iblk5 V c 2 t) (iblk5 V c 3 t)
    ?_ ?_ ?_ ?_ g).trans rfl
  · intro g' k
    show V c main_v69 (((cfg5.win 0).blk t).view.emb (ix2 g' k)) = V c main_v69 _
    congr 1
    funext ax; apply Fin.ext
    match ax with
    | ⟨0, _⟩ => show win5_0.index t (0 : Fin 2) * 2048 + 1 * g'.val = g'.val; omega
    | ⟨1, _⟩ => show win5_0.index t (1 : Fin 2) * 64 + 1 * k.val = k.val; omega
  · intro g'
    refine Eq.trans ?_ (h1 g')
    show V c main_v72 (((cfg5.win 1).blk t).view.emb (ix2 g' (0 : Fin 1))) = V c main_v72 _
    congr 1
    funext ax; apply Fin.ext
    match ax with
    | ⟨0, _⟩ => show win5_1.index t (0 : Fin 2) * 2048 + 1 * g'.val = g'.val; omega
    | ⟨1, _⟩ => show win5_1.index t (1 : Fin 2) * 1 + 1 * 0 = 0; omega
  · intro k
    refine Eq.trans ?_ (h2 k)
    show V c main_v70 (((cfg5.win 2).blk t).view.emb (ix2 k (0 : Fin 1))) = V c main_v70 _
    congr 1
    funext ax; apply Fin.ext
    match ax with
    | ⟨0, _⟩ => show win5_2.index t (0 : Fin 2) * 64 + 1 * k.val = k.val; omega
    | ⟨1, _⟩ => show win5_2.index t (1 : Fin 2) * 1 + 1 * 0 = 0; omega
  · refine Eq.trans ?_ h3
    show V c main_v71 (((cfg5.win 3).blk t).view.emb (ix2 (0 : Fin 1) (0 : Fin 1))) = V c main_v71 _
    congr 1
    funext ax; apply Fin.ext
    match ax with
    | ⟨0, _⟩ => show win5_3.index t (0 : Fin 2) * 1 + 1 * 0 = 0; omega
    | ⟨1, _⟩ => show win5_3.index t (1 : Fin 2) * 1 + 1 * 0 = 0; omega

/-- An index of the result column is in the point's block iff each coordinate is in the block's range on its axis. -/
theorem mem_block5 (t : Fin cfg5.N) (i : S2048x1.Idx) :
    i ∈ ((cfg5.win 4).blk t).view.set ↔ ∀ a : Fin 2, win5_4.index t a * S2048x1.size a ≤ (i a).val
      ∧ (i a).val < win5_4.index t a * S2048x1.size a + S2048x1.size a := by
  show i ∈ ((View.whole main_v73).slice (win5_4.rect t)).set ↔ _
  rw [View.set_slice_whole, Rect.mem_set_unit]
  exact Iff.rfl

/-- The one block is the whole column. -/
theorem cover5 (i : S2048x1.Idx) :
    ∃ t : Fin cfg5.N, (cfg5.win 4).flush t = true ∧ i ∈ ((cfg5.win 4).blk t).view.set := by
  have hi0 : (i 0).val < 2048 := (i 0).isLt
  have hi1 : (i 1).val < 1 := (i 1).isLt
  refine ⟨⟨0, by decide⟩, flush5_4 _, ?_⟩
  rw [mem_block5]
  obtain ⟨e00, e01, e10, e11, e20, e21, e30, e31, e40, e41⟩ := index_maps5 ⟨0, by decide⟩
  intro a
  match a with
  | ⟨0, _⟩ =>
    show win5_4.index ⟨0, by decide⟩ (0 : Fin 2) * 2048 ≤ (i 0).val
      ∧ (i 0).val < win5_4.index ⟨0, by decide⟩ (0 : Fin 2) * 2048 + 2048
    rw [e40]; omega
  | ⟨1, _⟩ =>
    show win5_4.index ⟨0, by decide⟩ (1 : Fin 2) * 1 ≤ (i 1).val
      ∧ (i 1).val < win5_4.index ⟨0, by decide⟩ (1 : Fin 2) * 1 + 1
    rw [e41]; omega

/-- After the run the result column holds the head's value of every graph. -/
theorem arr5 (h1 : ∀ g : Fin 2048, V c main_v72 (ix2 g (0 : Fin 1)) = cnt (ix1 g))
    (h2 : ∀ k : Fin 64, V c main_v70 (ix2 k (0 : Fin 1)) = fcw (ix2 (0 : Fin 1) k))
    (h3 : V c main_v71 (ix2 (0 : Fin 1) (0 : Fin 1)) = fcb (ix1 (0 : Fin 1))) :
    (dat5 V c).arrAt 4 cfg5.N = headCol (V c main_v69) cnt fcw fcb :=
  (dat5 V c).arrAt_eq_of_cover 4 _ (fun t _ => flushed5 V c cnt fcw fcb h1 h2 h3 t) (cover5)

end Cert.KernelIdeal.Tiles

end
-- ==== Proof.FoldB.lean ====
/-
  The kernel program's buffers, boundary by boundary: from the first layer's output to the result.

  Continuing the walk: the second linear layer, its aggregation over the edges, its bias and rectification, the pooled
  sums and the node counts of each graph, and the head. At the last boundary the result buffer holds the reference's
  whole term of the argument arrays.
-/
import proofs.«421451_j11776800326003_1_alg».proof.Proof.FoldA
import proofs.«421451_j11776800326003_1_alg».proof.Proof.Tile3
import proofs.«421451_j11776800326003_1_alg».proof.Proof.Tile4
import proofs.«421451_j11776800326003_1_alg».proof.Proof.Tile5

set_option maxRecDepth 16384

noncomputable section

namespace Cert.KernelIdeal.Fold

open Cert.KernelIdeal Cert.KernelIdeal.Gen Cert.Gcn Cert.KernelIdeal.Tiles Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## What the third region leaves alone -/

theorem w5_src : W5 m ρ c (Proc.devRef .tc main_v3) = val_main_v3 (F := Ideal) (a1 m c) :=
  (W5_of_ne m ρ c main_v3 (by decide)).trans (w4_src m ρ c)
theorem w5_dst : W5 m ρ c (Proc.devRef .tc main_v6) = val_main_v6 (F := Ideal) (a1 m c) :=
  (W5_of_ne m ρ c main_v6 (by decide)).trans (w4_dst m ρ c)
theorem w5_norm : W5 m ρ c (Proc.devRef .tc main_v28) = val_main_v28 (F := Ideal) (a1 m c) :=
  (W5_of_ne m ρ c main_v28 (by decide)).trans (w4_norm m ρ c)
theorem w5_arg2 : W5 m ρ c (Proc.devRef .tc main_arg2) = a2 m c :=
  (W5_of_ne m ρ c main_arg2 (by decide)).trans (w4_arg2 m ρ c)
theorem w5_arg6 : W5 m ρ c (Proc.devRef .tc main_arg6) = a6 m c :=
  (W5_of_ne m ρ c main_arg6 (by decide)).trans (w4_arg6 m ρ c)
theorem w5_arg7 : W5 m ρ c (Proc.devRef .tc main_arg7) = a7 m c :=
  (W5_of_ne m ρ c main_arg7 (by decide)).trans (w4_arg7 m ρ c)
theorem w5_arg8 : W5 m ρ c (Proc.devRef .tc main_arg8) = a8 m c :=
  (W5_of_ne m ρ c main_arg8 (by decide)).trans (w4_arg8 m ρ c)
theorem w5_arg9 : W5 m ρ c (Proc.devRef .tc main_arg9) = a9 m c :=
  (W5_of_ne m ρ c main_arg9 (by decide)).trans (w4_arg9 m ρ c)

/-! ## What the fourth region leaves alone -/

theorem w6_src : W6 m ρ c (Proc.devRef .tc main_v3) = val_main_v3 (F := Ideal) (a1 m c) :=
  (W6_of_ne m ρ c main_v3 (by decide)).trans (w5_src m ρ c)
theorem w6_dst : W6 m ρ c (Proc.devRef .tc main_v6) = val_main_v6 (F := Ideal) (a1 m c) :=
  (W6_of_ne m ρ c main_v6 (by decide)).trans (w5_dst m ρ c)
theorem w6_norm : W6 m ρ c (Proc.devRef .tc main_v28) = val_main_v28 (F := Ideal) (a1 m c) :=
  (W6_of_ne m ρ c main_v28 (by decide)).trans (w5_norm m ρ c)
theorem w6_arg2 : W6 m ρ c (Proc.devRef .tc main_arg2) = a2 m c :=
  (W6_of_ne m ρ c main_arg2 (by decide)).trans (w5_arg2 m ρ c)
theorem w6_arg7 : W6 m ρ c (Proc.devRef .tc main_arg7) = a7 m c :=
  (W6_of_ne m ρ c main_arg7 (by decide)).trans (w5_arg7 m ρ c)
theorem w6_arg8 : W6 m ρ c (Proc.devRef .tc main_arg8) = a8 m c :=
  (W6_of_ne m ρ c main_arg8 (by decide)).trans (w5_arg8 m ρ c)
theorem w6_arg9 : W6 m ρ c (Proc.devRef .tc main_arg9) = a9 m c :=
  (W6_of_ne m ρ c main_arg9 (by decide)).trans (w5_arg9 m ρ c)

/-! ## After the third host stretch (the fifth region's entry) -/

theorem w7_arg2 : W7 m ρ c (Proc.devRef .tc main_arg2) = a2 m c := by
  show StableHlo.after hostOps4 (W6 m ρ c) (Proc.devRef .tc main_arg2) = _; after_results_simp; exact w6_arg2 m ρ c
theorem w7_arg8 : W7 m ρ c (Proc.devRef .tc main_arg8) = a8 m c := by
  show StableHlo.after hostOps4 (W6 m ρ c) (Proc.devRef .tc main_arg8) = _; after_results_simp; exact w6_arg8 m ρ c
theorem w7_arg9 : W7 m ρ c (Proc.devRef .tc main_arg9) = a9 m c := by
  show StableHlo.after hostOps4 (W6 m ρ c) (Proc.devRef .tc main_arg9) = _; after_results_simp; exact w6_arg9 m ρ c

/-- The second layer's bias as a row. -/
theorem w7_bias : W7 m ρ c (Proc.devRef .tc main_v61) = shapeCast S1x64 (a7 m c) shapeCasts_S64_S1x64 := by
  show StableHlo.after hostOps4 (W6 m ρ c) (Proc.devRef .tc main_v61) = _; after_results_simp
  rw [w6_arg7]; rfl

/-! ## What the fifth region leaves alone -/

theorem w8_arg2 : W8 m ρ c (Proc.devRef .tc main_arg2) = a2 m c :=
  (W8_of_ne m ρ c main_arg2 (by decide)).trans (w7_arg2 m ρ c)
theorem w8_arg8 : W8 m ρ c (Proc.devRef .tc main_arg8) = a8 m c :=
  (W8_of_ne m ρ c main_arg8 (by decide)).trans (w7_arg8 m ρ c)
theorem w8_arg9 : W8 m ρ c (Proc.devRef .tc main_arg9) = a9 m c :=
  (W8_of_ne m ρ c main_arg9 (by decide)).trans (w7_arg9 m ρ c)

/-! ## After the fourth host stretch (the last region's entry): what does not depend on the features -/

/-- The node counts of the graphs, as a column. -/
theorem w9_counts : W9 m ρ c (Proc.devRef .tc main_v72)
    = shapeCast S2048x1 (val_main_v75 (F := Ideal) (a2 m c)) shapeCasts_S2048_S2048x1 := by
  show StableHlo.after hostOps5 (W8 m ρ c) (Proc.devRef .tc main_v72) = _; after_results_simp
  rw [w8_arg2]; rfl
/-- The head's weights as a column. -/
theorem w9_weights : W9 m ρ c (Proc.devRef .tc main_v70) = val_main_v84 (F := Ideal) (a8 m c) := by
  show StableHlo.after hostOps5 (W8 m ρ c) (Proc.devRef .tc main_v70) = _; after_results_simp
  rw [w8_arg8]; rfl
/-- The head's bias as a 1 × 1 cell. -/
theorem w9_bias : W9 m ρ c (Proc.devRef .tc main_v71) = shapeCast S1x1 (a9 m c) shapeCasts_S1_S1x1 := by
  show StableHlo.after hostOps5 (W8 m ρ c) (Proc.devRef .tc main_v71) = _; after_results_simp
  rw [w8_arg9]; rfl

section
variable (hr : ∀ p : Fin 100000, ((a0 m c) (ix1 p)).toNat < 128)
include hr

/-- The second linear layer. -/
theorem w6_h2 : W6 m ρ c (Proc.devRef .tc main_v47)
    = val_main_v54 (F := Ideal) (a0 m c) (a1 m c) (a3 m c) (a4 m c) (a5 m c) (a6 m c) := by
  refine (W6_arr m ρ c 2).trans ((arr3 (V5 m ρ) c).trans ?_)
  exact (congrArg₂ lin2R (w5_x1 m ρ c hr) (w5_arg6 m ρ c)).trans rfl

/-- The second layer's aggregation over the edges. -/
theorem w7_agg : W7 m ρ c (Proc.devRef .tc main_v60)
    = val_main_v67 (F := Ideal) (a0 m c) (a1 m c) (a3 m c) (a4 m c) (a5 m c) (a6 m c) := by
  show StableHlo.after hostOps4 (W6 m ρ c) (Proc.devRef .tc main_v60) = _; after_results_simp
  rw [w6_h2 m ρ c hr, w6_src, w6_dst, w6_norm]; rfl

/-- The second layer's output. -/
theorem w8_x2 : W8 m ρ c (Proc.devRef .tc main_v62)
    = val_main_v71 (F := Ideal) (a0 m c) (a1 m c) (a3 m c) (a4 m c) (a5 m c) (a6 m c) (a7 m c) := by
  refine (W8_arr m ρ c 2).trans ((arr4 (V7 m ρ) c (a7 m c) (fun k => ?_)).trans ?_)
  · show W7 m ρ c (Proc.devRef .tc main_v61) (ix2 (0 : Fin 1) k) = _
    rw [w7_bias]
    exact shapeCast_a_1a_apply _ _ 0 k
  · exact (congrArg (fun z => act2R z (a7 m c)) (w7_agg m ρ c hr)).trans rfl

/-- The pooled sums of the graphs. -/
theorem w9_pool : W9 m ρ c (Proc.devRef .tc main_v69)
    = val_main_v78 (F := Ideal) (a0 m c) (a1 m c) (a2 m c) (a3 m c) (a4 m c) (a5 m c) (a6 m c) (a7 m c) := by
  show StableHlo.after hostOps5 (W8 m ρ c) (Proc.devRef .tc main_v69) = _; after_results_simp
  rw [w8_x2 m ρ c hr, w8_arg2]; rfl

/-- The result column after the last region: the head of every graph. -/
theorem w10_head : W10 m ρ c (Proc.devRef .tc main_v73)
    = headCol (val_main_v78 (F := Ideal) (a0 m c) (a1 m c) (a2 m c) (a3 m c) (a4 m c) (a5 m c) (a6 m c) (a7 m c))
        (val_main_v75 (F := Ideal) (a2 m c)) (a8 m c) (a9 m c) := by
  refine (W10_arr m ρ c 4).trans ((arr5 (V9 m ρ) c (val_main_v75 (F := Ideal) (a2 m c)) (a8 m c) (a9 m c)
    (fun g => ?_) (fun k => ?_) ?_).trans ?_)
  · show W9 m ρ c (Proc.devRef .tc main_v72) (ix2 g (0 : Fin 1)) = _
    rw [w9_counts]
    exact Cert.LibColumn.shapeCast_a_a1_apply _ _ g 0
  · show W9 m ρ c (Proc.devRef .tc main_v70) (ix2 k (0 : Fin 1)) = _
    rw [w9_weights]
    exact transpose_ix2_apply _ _ k 0
  · show W9 m ρ c (Proc.devRef .tc main_v71) (ix2 (0 : Fin 1) (0 : Fin 1)) = _
    rw [w9_bias]
    exact Cert.LibColumn.shapeCast_a_a1_apply _ _ 0 0
  · exact congrArg (fun z => headCol z (val_main_v75 (F := Ideal) (a2 m c)) (a8 m c) (a9 m c)) (w9_pool m ρ c hr)

/-- THE RESULT: at the last boundary the result buffer holds the reference's term of the argument arrays. -/
theorem w11_result : W11 m ρ c (Proc.devRef .tc main_v74)
    = val_main_v95 (F := Ideal) (a0 m c) (a1 m c) (a2 m c) (a3 m c) (a4 m c) (a5 m c) (a6 m c) (a7 m c) (a8 m c)
        (a9 m c) := by
  show StableHlo.after hostOps6 (W10 m ρ c) (Proc.devRef .tc main_v74) = _; after_results_simp
  rw [w10_head m ρ c hr]
  funext i
  obtain ⟨g, rfl⟩ : ∃ g : Fin 2048, i = ix1 g := ⟨i 0, eq_ix1 i⟩
  refine (shapeCast_apply _ shapeCasts_S2048x1_S2048 (ix1 g) (ix2 g (0 : Fin 1)) ?_).trans ?_
  · rw [Shape.rowMajor_val_two, Shape.rowMajor_val_one]
    show g.val * 1 + 0 = g.val
    omega
  · rfl

end

end Cert.KernelIdeal.Fold

end
-- ==== Proof.lean ====
/-
  Kernel and reference compute the same network on the extended reals.

  The network: an embedding lookup of the node ids; two graph-convolution layers (a linear map, a normalised
  aggregation over the edges with self loops, a bias and max(·, 0)); a mean over the nodes of each graph; a linear head
  and the logistic function. The reference is one line of host operations. The kernel program computes the lookup, the
  two linear maps, the two bias-and-rectification steps and the head inside six kernels, and everything else — the edge
  lists, the normalisation, the two aggregations, the pooling — by the very host operations the reference uses.

  So the two results are one term of the argument arrays as soon as each kernel's output array is the reference's own
  operator of the kernel's input arrays:
    · the lookup, done as a one-hot row times the table, is the table's row of the id when the id is in 0 … 127 (the
      precondition's last conjunct; outside that range the host's lookup wraps or clamps and the kernel's product is a
      zero row);
    · a block of rows times a weight matrix is the same finite sum as the whole product at that row;
    · bias and max(·, 0) are entrywise;
    · in the head, the logistic function is 1 / (1 + exp(−x)) on the extended reals by definition, which is how the
      reference spells it.
  No step moves a factor across a sum, so the finiteness of the float inputs is not used.

  The frames of the two kernel programs are the generated ones; the reference's frame is its generated run with the
  result dropped; the idealization rewrote nothing, so the preservation claim is trivial.
-/
import proofs.«421451_j11776800326003_1_alg».proof.Defs
import proofs.«421451_j11776800326003_1_alg».proof.Proof.Gen.Kernel
import proofs.«421451_j11776800326003_1_alg».proof.Proof.Gen.Kernel.Skeleton
import proofs.«421451_j11776800326003_1_alg».proof.Proof.Gen.Kernel.Launch
import proofs.«421451_j11776800326003_1_alg».proof.Proof.Gen.Kernel.Points
import proofs.«421451_j11776800326003_1_alg».proof.Proof.Gen.Kernel.Frame
import proofs.«421451_j11776800326003_1_alg».proof.Proof.Gen.KernelIdeal
import proofs.«421451_j11776800326003_1_alg».proof.Proof.Gen.KernelIdeal.Skeleton
import proofs.«421451_j11776800326003_1_alg».proof.Proof.Gen.KernelIdeal.Launch
import proofs.«421451_j11776800326003_1_alg».proof.Proof.Gen.KernelIdeal.Points
import proofs.«421451_j11776800326003_1_alg».proof.Proof.Gen.KernelIdeal.Frame
import proofs.«421451_j11776800326003_1_alg».proof.Proof.Gen.ReferenceIdeal
import proofs.«421451_j11776800326003_1_alg».proof.Proof.Gen.ReferenceIdeal.Run
import proofs.«421451_j11776800326003_1_alg».proof.Proof.Gen.ReferenceIdeal.Read
import proofs.«421451_j11776800326003_1_alg».proof.Proof.Gen.Pre_finite_inputs
import proofs.«421451_j11776800326003_1_alg».proof.Proof.RunValue
import proofs.«421451_j11776800326003_1_alg».proof.Proof.PayEmbed
import proofs.«421451_j11776800326003_1_alg».proof.Proof.FoldB
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's term of the argument arrays in their result buffers: the kernel program by
    the walk through its segment boundaries (every node id in 0 … 127 by the precondition), the reference by its own
    run, the arguments agreeing. -/
theorem algebraic : Cert.algebraic_KernelIdeal_ReferenceIdeal := by
  intro m ρ m' ρ' hpre hagree
  have hr : ∀ (c : Dev Cert.KernelIdeal.nD) (p : Fin 100000),
      ((Cert.KernelIdeal.Fold.a0 m c) (ix1 p)).toNat < 128 :=
    fun c => Cert.Gcn.ids_range _ _ _ _ _ _ _ _ _ _ (hpre c)
  refine ⟨fun c => Cert.ReferenceIdeal.Read.val_main_v95 (F := Ideal) (Cert.KernelIdeal.Fold.a0 m c)
      (Cert.KernelIdeal.Fold.a1 m c) (Cert.KernelIdeal.Fold.a2 m c) (Cert.KernelIdeal.Fold.a3 m c)
      (Cert.KernelIdeal.Fold.a4 m c) (Cert.KernelIdeal.Fold.a5 m c) (Cert.KernelIdeal.Fold.a6 m c)
      (Cert.KernelIdeal.Fold.a7 m c) (Cert.KernelIdeal.Fold.a8 m c) (Cert.KernelIdeal.Fold.a9 m c), ?_, ?_⟩
  · exact (θ_run Cert.KernelIdeal.defs _ _).mono
      (fun r h c => ⟨(h c).1.trans (Cert.KernelIdeal.Fold.w11_result m ρ c (hr c)), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
